-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x4096 : Shape := ⟨2, ![16384, 4096]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x128 .f32) (main_arg1 : FVec F S16384x4096 .f32) (main_arg2 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x128 : Shape := ⟨2, ![16384, 128]⟩
abbrev S16384x4096 : Shape := ⟨2, ![16384, 4096]⟩
abbrev S128x128 : Shape := ⟨2, ![128, 128]⟩
abbrev S4096x128 : Shape := ⟨2, ![4096, 128]⟩
abbrev S512x128 : Shape := ⟨2, ![512, 128]⟩
abbrev S512x4096 : Shape := ⟨2, ![512, 4096]⟩
abbrev S1x4096 : Shape := ⟨2, ![1, 4096]⟩
abbrev S4096 : Shape := ⟨1, ![4096]⟩
abbrev S4096x1 : Shape := ⟨2, ![4096, 1]⟩
abbrev S512 : Shape := ⟨1, ![512]⟩
abbrev S512x1 : Shape := ⟨2, ![512, 1]⟩

abbrev nBuf : Space → Nat
  | .hbm => 5
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S16384x4096, .f32⟩
  | .hbm, ⟨2, _⟩ => ⟨S128x128, .f32⟩
  | .hbm, ⟨3, _⟩ => ⟨S4096x128, .f32⟩
  | .hbm, ⟨4, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S512x4096, .f32⟩
  | .local _ .vmem, ⟨3, _⟩ => ⟨S512x4096, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S4096x128, .f32⟩
  | .local _ .vmem, ⟨11, _⟩ => ⟨S512x128, .f32⟩
  | .local _ .vmem, ⟨12, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v24 : BitVec 1 := Scalar.cmpi .eq arg0 c31_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x128_S512x128_0_0 : ∀ a, (![0, 0] : Fin 2 → Nat) a + S512x128.size a ≤ S512x128.size a
  h_S512x128 : 0 < S512x128.numel
  inb_S512x4096_S512x4096_0_0 : ∀ a, (![0, 0] : Fin 2 → Nat) a + S512x4096.size a ≤ S512x4096.size a
  h_S512x4096 : 0 < S512x4096.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  reduces_S512x4096_S4096 : S512x4096.Reduces [0] S4096
  shapeCasts_S4096_S1x4096 : S4096.ShapeCasts S1x4096
  transposes_S1x4096_p1_0_S4096x1 : S1x4096.Transposes [1, 0] S4096x1
  broadcasts_S4096x1_S4096x128 : S4096x1.Broadcasts S4096x128
  reduces_S512x4096_S512 : S512x4096.Reduces [1] S512
  shapeCasts_S512_S512x1 : S512.ShapeCasts S512x1
  broadcasts_S512x1_S512x128 : S512x1.Broadcasts S512x128
  dot_S512x128_S128x128_S512x128_1_0_0_1_n_n_wf : DotDims.WF S512x128 S128x128 S512x128 [1] [0] [0] [1] [] []
  dot_S512x4096_S512x128_S4096x128_0_0_1_1_n_n_wf : DotDims.WF S512x4096 S512x128 S4096x128 [0] [0] [1] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S16384x128.size a
  hwx1_2 : ∀ i : grid1.Coords, EltTy.bits .f32 = 32 ∨ (Rect.block (s := S16384x128) S512x128.size (cc1_transform_2 i) (hinb1_2 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x4096_S512x128_S4096x128_0_0_1_1_n_n : DotDims S512x4096 S512x128 S4096x128 where
  lhsContracting := [0]
  rhsContracting := [0]
  lhsNonContracting := [1]
  rhsNonContracting := [1]
  lhsBatch := []
  rhsBatch := []
  wf := dot_S512x4096_S512x128_S4096x128_0_0_1_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384x4096 : Shape := ⟨2, ![16384, 4096]⟩
abbrev S128x128 : Shape := ⟨2, ![128, 128]⟩
abbrev S_ : Shape := ⟨0, ![]⟩
abbrev S4096 : Shape := ⟨1, ![4096]⟩
abbrev S16384 : Shape := ⟨1, ![16384]⟩
abbrev S4096x16384 : Shape := ⟨2, ![4096, 16384]⟩
abbrev S4096x128 : Shape := ⟨2, ![4096, 128]⟩
abbrev S4096x1 : Shape := ⟨2, ![4096, 1]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x4096, .f32⟩
  | .hbm, ⟨2, _⟩ => ⟨S128x128, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x128, .f32⟩
  | .hbm, ⟨20, _⟩ => ⟨S4096x16384, .f32⟩
  | .hbm, ⟨21, _⟩ => ⟨S4096x128, .f32⟩
  | .hbm, ⟨22, _⟩ => ⟨S4096x1, .f32⟩
  | .hbm, ⟨23, _⟩ => ⟨S4096x128, .f32⟩
  | .hbm, ⟨24, _⟩ => ⟨S4096x128, .f32⟩
  | .hbm, ⟨25, _⟩ => ⟨S16384x128, .f32⟩
  | .hbm, ⟨26, _⟩ => ⟨S16384x1, .f32⟩
  | .hbm, ⟨27, _⟩ => ⟨S16384x128, .f32⟩
  | .hbm, ⟨28, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S16384x4096_S4096_d0 : S16384x4096.ReducesTo [0] S4096
  h_S_ : 0 < S_.numel
  bcast_S_S4096 : S_.BroadcastsInDim S4096 (![] : Fin 0 → Fin S4096.rank)
  reducesTo_S16384x4096_S16384_d1 : S16384x4096.ReducesTo [1] S16384
  bcast_S_S16384 : S_.BroadcastsInDim S16384 (![] : Fin 0 → Fin S16384.rank)
  transposes_S16384x4096_S4096x16384_1_0 : S16384x4096.Transposes [1, 0] S4096x16384
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  dot_S16384x128_S128x128_S16384x128_1_0_0_1_n_n_wf : DotDims.WF S16384x128 S128x128 S16384x128 [1] [0] [0] [1] [] []
  dot_S4096x16384_S16384x128_S4096x128_1_0_0_1_n_n_wf : DotDims.WF S4096x16384 S16384x128 S4096x128 [1] [0] [0] [1] [] []
  dot_S16384x4096_S4096x128_S16384x128_1_0_0_1_n_n_wf : DotDims.WF S16384x4096 S4096x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.WholeAccess.lean ====
/-
  Every store and load of the two kernel bodies goes through a buffer's whole extent. Two facts about such
  accesses, whatever was written before: reading a buffer after a whole-extent store gives the stored value, and
  so does a whole-extent load that the executor resolves against the list of stores made so far.
-/
import Idealize.ShloMosaic.Lib.Pipeline.FrameBody
import Idealize.ShloMosaic.Lib.Pipeline.Value

noncomputable section

namespace Cert.WholeAccess

open Idealize.ShloMosaic

variable {Val : EltTy → Type} [∀ e, Nonempty (Val e)] {S : Shape} {e : EltTy}
variable {sig : RefSig} {κ : Kind} {sp : Space}

/-- The zero offsets of a rank-2 access, as the printed rectangles spell them. -/
theorem zeros2 : (![0, 0] : Fin 2 → ℕ) = fun _ => 0 := by
  funext a; match a with
  | ⟨0, _⟩ => rfl
  | ⟨1, _⟩ => rfl

/-- After a store of `w` through the whole extent, made last, the buffer reads `w`, whatever it held and whatever the
    earlier stores `L` wrote. -/
theorem read_last_store (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb w L]

/-- A whole-extent load resolved against stores of which the last went through the whole extent reads that store's value. -/
theorem load_last_store (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self .., View.mem_set_unit_zero h inb y⟩),
    View.canon_cons_unit_zero h inb w L, View.ld_unit_zero h inb]

/-- A whole-extent load of a buffer nothing has stored into reads its contents. -/
theorem load_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Cert.WholeAccess

end
-- ==== Proof.EdgeData.lean ====
/-
  The first launch streams the 16384 rows of x and H in 32 tiles of 512 rows and keeps two running sums in
  scratch memory: `acc[e, f] = Σ_rows H[row, e] · (x W)[row, f]` and `deg[e] = Σ_rows H[row, e]`. The first tile
  starts both from zero; the last tile, after adding its share, writes `(1 / (deg[e] + ε)) · acc[e, f]` to the
  result. This module names what the two scratch arrays hold after each tile (by recursion on the tile), what
  the last tile writes, and the record the pipeline rule is instantiated with: each input window holds its tile,
  the result window is touched at the last tile only, and between two tiles the scratch arrays hold the running
  sums.
-/
import proofs.«117672_j79620103733959_1_alg».proof.Proof.Gen.KernelIdeal.Launch
import proofs.«117672_j79620103733959_1_alg».proof.Proof.Gen.KernelIdeal.Skeleton
import proofs.«117672_j79620103733959_1_alg».proof.Proof.Gen.KernelIdeal.Points
import Idealize.ShloMosaic.Lib.Pipeline.FrameBody
import Idealize.ShloMosaic.Lib.Pipeline.Frame

set_option maxRecDepth 16384

noncomputable section

namespace Cert.KernelIdeal.Edge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

/-! ## Tiles -/

/-- Window `w`'s tile at grid point `t`: the rows the pipeline stages there, read off the array the region was entered with. -/
def tile (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 512 rows of `x`, of `H`, and the whole of `W`, at tile `t`. -/
abbrev xT (c : Dev nD) (t : Fin cfg0.N) : Vec F S512x128 .f32 := tile V c 0 t
abbrev hT (c : Dev nD) (t : Fin cfg0.N) : Vec F S512x4096 .f32 := tile V c 1 t
abbrev wT (c : Dev nD) (t : Fin cfg0.N) : Vec F S128x128 .f32 := tile V c 2 t

/-! ## The running sums -/

/-- `acc` after tile `n`: the zero array plus the tiles' contributions `Hᵀ (x W)` up to `n`, added in tile order. -/
def accAt (c : Dev nD) : (n : ℕ) → n < cfg0.N → Vec F S4096x128 .f32
  | 0, h => k0_pay3 (xT V c ⟨0, h⟩) (hT V c ⟨0, h⟩) (wT V c ⟨0, h⟩) k0_pay1
  | n + 1, h => k0_pay3 (xT V c ⟨n + 1, h⟩) (hT V c ⟨n + 1, h⟩) (wT V c ⟨n + 1, h⟩) (accAt c n (Nat.lt_of_succ_lt h))

/-- `deg` after tile `n`: zero plus the tiles' column sums of `H` up to `n`. -/
def degAt (c : Dev nD) : (n : ℕ) → n < cfg0.N → Vec F S1x4096 .f32
  | 0, h => k0_pay4 (hT V c ⟨0, h⟩) k0_pay2
  | n + 1, h => k0_pay4 (hT V c ⟨n + 1, h⟩) (degAt c n (Nat.lt_of_succ_lt h))

theorem accAt_zero (c : Dev nD) (h : 0 < cfg0.N) :
    accAt V c 0 h = k0_pay3 (xT V c ⟨0, h⟩) (hT V c ⟨0, h⟩) (wT V c ⟨0, h⟩) k0_pay1 := rfl
theorem accAt_succ (c : Dev nD) (n : ℕ) (h : n + 1 < cfg0.N) :
    accAt V c (n + 1) h = k0_pay3 (xT V c ⟨n + 1, h⟩) (hT V c ⟨n + 1, h⟩) (wT V c ⟨n + 1, h⟩) (accAt V c n (Nat.lt_of_succ_lt h)) := rfl
theorem degAt_zero (c : Dev nD) (h : 0 < cfg0.N) :
    degAt V c 0 h = k0_pay4 (hT V c ⟨0, h⟩) k0_pay2 := rfl
theorem degAt_succ (c : Dev nD) (n : ℕ) (h : n + 1 < cfg0.N) :
    degAt V c (n + 1) h = k0_pay4 (hT V c ⟨n + 1, h⟩) (degAt V c n (Nat.lt_of_succ_lt h)) := rfl

/-- What a tile that is the last one writes to the result: the running sums after it, scaled row by row. -/
def outAt (c : Dev nD) (t : Fin cfg0.N) : Vec F S4096x128 .f32 :=
  k0_pay5 (degAt V c t.val t.isLt) (accAt V c t.val t.isLt)

/-! ## The scratch arrays between tiles -/

/-- The two scratch arrays as whole buffers. -/
abbrev accM : Memref sig .tc .vmem S4096x128 .f32 := Memref.whole cc0_scratch0
abbrev degM : Memref sig .tc .vmem S1x4096 .f32 := Memref.whole cc0_scratch1

/-- The second launch's staging buffers, which this region does not touch: each at some contents. -/
def later (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the region holds besides the windows before tile `n`: before the first tile the scratch arrays hold anything;
    afterwards they hold the running sums of the tile before. The generator register and the other launch's buffers ride along. -/
def between (c : Dev nD) : (n : ℕ) → n ≤ cfg0.N → sProp 𝕄
  | 0, _ => Pipeline.ΦA spec0 c
  | n + 1, h => iprop(owns (c : Thread nD τ) accM fullShare (accAt V c n h) ∗ owns (c : Thread nD τ) degM fullShare (degAt V c n h)
      ∗ later c ∗ ∃ r, prngReg c r)

theorem between_zero (c : Dev nD) (h : 0 ≤ cfg0.N) : between V c 0 h = Pipeline.ΦA spec0 c := rfl
theorem between_succ (c : Dev nD) (n : ℕ) (h : n + 1 ≤ cfg0.N) :
    between V c (n + 1) h = iprop(owns (c : Thread nD τ) accM fullShare (accAt V c n h) ∗ owns (c : Thread nD τ) degM fullShare (degAt V c n h)
      ∗ later c ∗ ∃ r, prngReg c r) := rfl

/-- Before the first tile: the scratch arrays at anything. -/
theorem start_open (c : Dev nD) :
    (Pipeline.ΦA spec0 c : sProp 𝕄) ⊢ iprop((∃ a, owns (c : Thread nD τ) accM fullShare a) ∗ (∃ d, owns (c : Thread nD τ) degM fullShare d)
      ∗ later c ∗ ∃ r, prngReg c r) := by
  unfold Pipeline.ΦA later; rw [scopedRest0_eq]; simp only [accM, degM, owns_whole]
  iintro ⟨⟨Ha, Hd, H1, H2, H3, H4, H5⟩, Hp⟩
  isplitl [Ha]; · iexact Ha
  isplitl [Hd]; · iexact Hd
  isplitl [H1 H2 H3 H4 H5]
  · isplitl [H1]; · iexact H1
    isplitl [H2]; · iexact H2
    isplitl [H3]; · iexact H3
    isplitl [H4]; · iexact H4
    iexact H5
  iexact Hp

/-- Whatever the scratch arrays hold, the region may close on them. -/
theorem close_any (c : Dev nD) :
    iprop((∃ a, owns (c : Thread nD τ) accM fullShare a) ∗ (∃ d, owns (c : Thread nD τ) degM fullShare d)
      ∗ later c ∗ ∃ r, prngReg c r) ⊢ (Pipeline.ΦA spec0 c : sProp 𝕄) := by
  unfold Pipeline.ΦA later; rw [scopedRest0_eq]; simp only [accM, degM, owns_whole]
  iintro ⟨Ha, Hd, ⟨H1, H2, H3, H4, H5⟩, Hp⟩
  isplitr [Hp]
  · isplitl [Ha]; · iexact Ha
    isplitl [Hd]; · iexact Hd
    isplitl [H1]; · iexact H1
    isplitl [H2]; · iexact H2
    isplitl [H3]; · iexact H3
    isplitl [H4]; · iexact H4
    iexact H5
  iexact Hp

/-! ## The record for the pipeline rule -/

/-- Region 0's record on core `c`: the arrays as entered; each input window at its tile after the body; the result window
    at `outAt` (consulted at the last tile only: elsewhere the window is idle); between tiles `between`; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outAt V c t
  Φ t := between V c t.val (Nat.le_of_lt_succ t.isLt)
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = tile V c 2 t := by dsimp only [dat]
theorem dat_after3 (c : Dev nD) (t : Fin cfg0.N) : (dat V c).after 3 t = outAt V c t := by dsimp only [dat]
theorem dat_Φ (c : Dev nD) (t : Fin (cfg0.N + 1)) : (dat V c).Φ t = between V c t.val (Nat.le_of_lt_succ t.isLt) := by dsimp only [dat]

/-- An input window's staging buffer holds its tile when the body runs, whether the pipeline fetched it there or kept
    it: the body leaves the tile in place, and an unfetched window's block index has not moved. -/
theorem before0 (c : Dev nD) (t : Fin cfg0.N) (d) : (dat V c).before 0 t d = tile V c 0 t :=
  ((dat V c).before_in_eq_fetched 0 rfl (fun _ => rfl) (fun _ _ _ => rfl)
      (fun t => by rw [dat_after0]; unfold Dat.blockOf tile; rw [dat_A]; try rfl) t d).trans
    (by unfold Dat.fetched Dat.blockOf tile; rw [dat_A]; try rfl)
theorem before1 (c : Dev nD) (t : Fin cfg0.N) (d) : (dat V c).before 1 t d = tile V c 1 t :=
  ((dat V c).before_in_eq_fetched 1 rfl (fun _ => rfl) (fun _ _ _ => rfl)
      (fun t => by rw [dat_after1]; unfold Dat.blockOf tile; rw [dat_A]; try rfl) t d).trans
    (by unfold Dat.fetched Dat.blockOf tile; rw [dat_A]; try rfl)
theorem before2 (c : Dev nD) (t : Fin cfg0.N) (d) : (dat V c).before 2 t d = tile V c 2 t :=
  ((dat V c).before_in_eq_fetched 2 rfl (fun _ => rfl) (fun _ _ _ => rfl)
      (fun t => by rw [dat_after2]; unfold Dat.blockOf tile; rw [dat_A]; try rfl) t d).trans
    (by unfold Dat.fetched Dat.blockOf tile; rw [dat_A]; try rfl)

end Cert.KernelIdeal.Edge

end
-- ==== Proof.EdgeBody.lean ====
/-
  The first launch's body, run at a grid point. It branches twice on the tile number: the first tile zeroes the
  two scratch arrays before adding to them, the last tile also writes the scaled result. So there are three ways
  through it (a grid of 32 tiles has no tile that is both first and last), each proved as a triple over arbitrary
  whole buffers: the scratch arrays go from what they held (anything, at the first tile) to the updated running
  sums, the input buffers are left as they were, and the result buffer is untouched except at the last tile.
  Then the three are laid against the grid: at tile 0 the first, at tile 31 the last, in between the middle one,
  with the scratch contents of `between` threading through.
-/
import proofs.«117672_j79620103733959_1_alg».proof.Proof.Gen.KernelIdeal.Launch
import proofs.«117672_j79620103733959_1_alg».proof.Proof.Gen.KernelIdeal.Skeleton
import proofs.«117672_j79620103733959_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.WholeAccess
import proofs.«117672_j79620103733959_1_alg».proof.Proof.EdgeData
set_option maxRecDepth 16384

noncomputable section

namespace Cert.KernelIdeal.Edge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic Cert.WholeAccess

/-! ## Which tiles take which branch -/

/-- The condition of the body's first branch, as the body computes it from the tile number. -/
abbrev isFirst (i : grid0.Coords) : Prop :=
  (Scalar.cmpi .ne (Scalar.extui (Scalar.cmpi .eq (BitVec.ofNat 32 (i 0).val) 0#32)) 0#32) = 1#1
/-- The condition of its second branch. -/
abbrev isLast (i : grid0.Coords) : Prop := k0_cond2 i = 1#1

/-- Over the 32 tiles: the first branch is taken at tile 0 only, the second at tile 31 only. -/
theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

/-- The input windows are live at every tile; the result window is live at the last tile, idle and not written back elsewhere. -/
theorem result_idle : ∀ t : Fin cfg0.N, ¬isLast (grid0.coords t) → cfg0.idle 3 (grid0.coords t) = true := by decide +kernel
theorem result_kept : ∀ t : Fin cfg0.N, ¬isLast (grid0.coords t) → (cfg0.win 3).flush t = false := by decide +kernel
theorem result_live : ∀ t : Fin cfg0.N, isLast (grid0.coords t) → cfg0.idle 3 (grid0.coords t) = false := by decide +kernel

/-! ## The three ways through the body -/

section Triples

variable (c : Dev nD) (E : Set ℕ) (i : grid0.Coords)
  (arg1 : Memref sig .tc .vmem S512x128 .f32) (harg1 : arg1.IsWhole) (arg2 : Memref sig .tc .vmem S512x4096 .f32) (harg2 : arg2.IsWhole)
  (arg3 : Memref sig .tc .vmem S128x128 .f32) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x4096 .f32) (harg6 : arg6.IsWhole)
  (x : Vec F S512x128 .f32) (h : Vec F S512x4096 .f32) (w : Vec F S128x128 .f32)

set_option maxHeartbeats 2000000 in
/-- The first tile: whatever the scratch arrays held, they end at the tile's contribution added to zero. -/
theorem first_tile (hf : isFirst i) (hl : ¬isLast i) (y : Vec F S4096x128 .f32) (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare y ∗ (∃ a, owns (c : Thread nD τ) arg5 fullShare a) ∗ (∃ d, owns (c : Thread nD τ) arg6 fullShare d)
        ∗ (iprop(owns (c : Thread nD τ) arg1 fullShare x ∗ owns (c : Thread nD τ) arg2 fullShare h ∗ owns (c : Thread nD τ) arg3 fullShare w
            ∗ owns (c : Thread nD τ) arg4 fullShare y
            ∗ owns (c : Thread nD τ) arg5 fullShare (k0_pay3 x h w k0_pay1)
            ∗ owns (c : Thread nD τ) arg6 fullShare (k0_pay4 h k0_pay2)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%f4, %hf4, H4⟩, ⟨%a5, %f5, -, H5⟩, ⟨%d6, %f6, -, H6⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_words
    rw [read_last_store _ _ zeros2, load_whole _ _ zeros2, load_whole _ _ zeros2, load_whole _ _ zeros2, load_last_store _ zeros2]
  · iexists _; isplitr
    swap; · iexact H6
    ipureintro; sl_unfold_words
    rw [read_last_store _ _ zeros2, load_whole _ _ zeros2, load_last_store _ zeros2]

set_option maxHeartbeats 2000000 in
/-- A tile that is neither first nor last: the scratch arrays go from `a`, `d` to the tile's contribution added to them. -/
theorem middle_tile (hf : ¬isFirst i) (hl : ¬isLast i) (y : Vec F S4096x128 .f32) (a : Vec F S4096x128 .f32) (d : Vec F S1x4096 .f32)
    (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare y ∗ owns (c : Thread nD τ) arg5 fullShare a ∗ owns (c : Thread nD τ) arg6 fullShare d
        ∗ (iprop(owns (c : Thread nD τ) arg1 fullShare x ∗ owns (c : Thread nD τ) arg2 fullShare h ∗ owns (c : Thread nD τ) arg3 fullShare w
            ∗ owns (c : Thread nD τ) arg4 fullShare y
            ∗ owns (c : Thread nD τ) arg5 fullShare (k0_pay3 x h w a)
            ∗ owns (c : Thread nD τ) arg6 fullShare (k0_pay4 h d)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_words
    rw [read_last_store _ _ zeros2, load_whole _ _ zeros2, load_whole _ _ zeros2, load_whole _ _ zeros2, load_whole _ _ zeros2]
  · iexists _; isplitr
    swap; · iexact H6
    ipureintro; sl_unfold_words
    rw [read_last_store _ _ zeros2, load_whole _ _ zeros2, load_whole _ _ zeros2]

set_option maxHeartbeats 2000000 in
/-- The last tile: as a middle tile, and the result buffer, whatever it held, ends at the scaled running sums. -/
theorem last_tile (hf : ¬isFirst i) (hl : isLast i) (a : Vec F S4096x128 .f32) (d : Vec F S1x4096 .f32) (K : PUnit → sProp 𝕄) :
    iprop(owns (c : Thread nD τ) arg1 fullShare x ∗ owns (c : Thread nD τ) arg2 fullShare h ∗ owns (c : Thread nD τ) arg3 fullShare w
        ∗ (∃ y, owns (c : Thread nD τ) arg4 fullShare y) ∗ owns (c : Thread nD τ) arg5 fullShare a ∗ owns (c : Thread nD τ) arg6 fullShare d
        ∗ (iprop(owns (c : Thread nD τ) arg1 fullShare x ∗ owns (c : Thread nD τ) arg2 fullShare h ∗ owns (c : Thread nD τ) arg3 fullShare w
            ∗ owns (c : Thread nD τ) arg4 fullShare (k0_pay5 (k0_pay4 h d) (k0_pay3 x h w a))
            ∗ owns (c : Thread nD τ) arg5 fullShare (k0_pay3 x h w a)
            ∗ owns (c : Thread nD τ) arg6 fullShare (k0_pay4 h d)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%y4, %f4, -, H4⟩, ⟨%f5, %hf5, H5⟩, ⟨%f6, %hf6, H6⟩, Hk⟩
  subst hf1; subst hf2; subst hf3; subst hf5; subst hf6
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro; sl_unfold_words
    rw [read_last_store _ _ zeros2, load_last_store _ zeros2, load_last_store _ zeros2]
    repeat rw [load_whole _ _ zeros2]
  isplitl [H5]
  · iexists _; isplitr
    swap; · iexact H5
    ipureintro; sl_unfold_words
    rw [read_last_store _ _ zeros2, load_whole _ _ zeros2, load_whole _ _ zeros2, load_whole _ _ zeros2, load_whole _ _ zeros2]
  · iexists _; isplitr
    swap; · iexact H6
    ipureintro; sl_unfold_words
    rw [read_last_store _ _ zeros2, load_whole _ _ zeros2, load_whole _ _ zeros2]

end Triples

end Cert.KernelIdeal.Edge

end
-- ==== Proof.EdgeRegion.lean ====
/-
  The first launch's body at each of the 32 grid points, against the record of EdgeData: tile 0 goes the first
  way through the body and turns scratch arrays holding anything into the first running sums; tiles 1 to 30 go the
  middle way from the running sums of the tile before to their own; tile 31 goes the last way and also fills the
  result buffer. At every tile but the last the result window is idle: its buffer is handed back as it was found.
-/
import proofs.«117672_j79620103733959_1_alg».proof.Proof.Gen.KernelIdeal.Launch
import proofs.«117672_j79620103733959_1_alg».proof.Proof.Gen.KernelIdeal.Skeleton
import proofs.«117672_j79620103733959_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.EdgeBody
set_option maxRecDepth 16384

noncomputable section

namespace Cert.KernelIdeal.Edge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic

/-- What the body is handed at tile `t`: what the region holds between tiles, what the core owes, each window's current buffer. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it hands back. -/
def returned (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- An input window is live everywhere: the body leaves its buffer at the tile. -/
theorem leaves0 (c : Dev nD) (t : Fin cfg0.N) : (dat V c).leavesExact 0 t = owns (c : Thread nD τ) (st0_0 t) fullShare (tile V c 0 t) := by
  unfold Dat.leavesExact; rw [show cfg0.idle 0 (cfg0.grid.coords t) = false from rfl, dat_after0]
theorem leaves1 (c : Dev nD) (t : Fin cfg0.N) : (dat V c).leavesExact 1 t = owns (c : Thread nD τ) (st0_1 t) fullShare (tile V c 1 t) := by
  unfold Dat.leavesExact; rw [show cfg0.idle 1 (cfg0.grid.coords t) = false from rfl, dat_after1]
theorem leaves2 (c : Dev nD) (t : Fin cfg0.N) : (dat V c).leavesExact 2 t = owns (c : Thread nD τ) (st0_2 t) fullShare (tile V c 2 t) := by
  unfold Dat.leavesExact; rw [show cfg0.idle 2 (cfg0.grid.coords t) = false from rfl, dat_after2]
/-- The result window: handed back as found at every tile but the last, filled at the last. -/
theorem leaves3_idle (c : Dev nD) (t : Fin cfg0.N) (h : ¬isLast (grid0.coords t)) :
    (dat V c).leavesExact 3 t = iprop(∃ d, owns (c : Thread nD τ) (st0_3 t) fullShare ((dat V c).before 3 t d)) :=
  Dat.leavesExact_idle (dat V c) 3 t (result_idle t h) (result_kept t h)
theorem leaves3_last (c : Dev nD) (t : Fin cfg0.N) (h : isLast (grid0.coords t)) :
    (dat V c).leavesExact 3 t = owns (c : Thread nD τ) (st0_3 t) fullShare (outAt V c t) := by
  unfold Dat.leavesExact; rw [result_live t h, dat_after3]

set_option maxHeartbeats 4000000 in
theorem body_at (c : Dev nD) (t : Fin cfg0.N) :
    handed V c t ⊢ wp frame (wpE (defs₀ (F := F)) Variants.none c none) Set.univ (bodyAt0 t) (fun _ => returned V c t) := by
  unfold handed returned bodyAt0
  simp only [before0, before1, before2]
  rw [show (dat V c).owesAt () t.succ = (dat V c).owesAt () t.castSucc from rfl, leaves0, leaves1, leaves2]
  have hN : t.val < 32 := lt_of_lt_of_eq t.isLt (show cfg0.N = 32 from N_0)
  obtain ⟨n, hn⟩ := t
  rcases n with _ | n
  · -- tile 0
    have hfst : isFirst (grid0.coords ⟨0, hn⟩) := (isFirst_iff ⟨0, hn⟩).mpr rfl
    have hlst : ¬isLast (grid0.coords ⟨0, hn⟩) := fun h => by have := (isLast_iff ⟨0, hn⟩).mp h; simp at this
    rw [leaves3_idle V c _ hlst]
    rw [show (dat V c).Φ (Fin.castSucc ⟨0, hn⟩) = Pipeline.ΦA spec0 c from rfl,
      show (dat V c).Φ (Fin.succ ⟨0, hn⟩) = between V c 1 hn from rfl, between_succ, accAt_zero, degAt_zero]
    iintro ⟨HΦ, Ho, ⟨%d0, H0⟩, ⟨%d1, H1⟩, ⟨%d2, H2⟩, ⟨%d3, H3⟩⟩
    ihave HΦ' := (start_open (F := F) c) $$ HΦ
    icases HΦ' with ⟨Ha, Hd, Hl, Hp⟩
    iapply (first_tile c Set.univ _ _ _ _ _ _ _ _ _ _ _ _ _ (tile V c 0 ⟨0, hn⟩) (tile V c 1 ⟨0, hn⟩) (tile V c 2 ⟨0, hn⟩) hfst hlst _ _)
    isplitl [H0]; · iexact H0
    isplitl [H1]; · iexact H1
    isplitl [H2]; · iexact H2
    isplitl [H3]; · iexact H3
    isplitl [Ha]; · iexact Ha
    isplitl [Hd]; · iexact Hd
    iintro ⟨H0, H1, H2, H3, Ha, Hd⟩
    isplitl [Ha Hd Hl Hp]
    · isplitl [Ha]; · iexact Ha
      isplitl [Hd]; · iexact Hd
      isplitl [Hl]; · iexact Hl
      iexact Hp
    isplitl [Ho]; · iexact Ho
    isplitl [H0]; · iexact H0
    isplitl [H1]; · iexact H1
    isplitl [H2]; · iexact H2
    iexists _; iexact H3
  · have hfst : ¬isFirst (grid0.coords ⟨n + 1, hn⟩) := fun h => by have := (isFirst_iff ⟨n + 1, hn⟩).mp h; simp at this
    rw [show (dat V c).Φ (Fin.castSucc ⟨n + 1, hn⟩) = between V c (n + 1) (Nat.le_of_lt hn) from rfl,
      show (dat V c).Φ (Fin.succ ⟨n + 1, hn⟩) = between V c (n + 2) hn from rfl, between_succ, between_succ, accAt_succ, degAt_succ]
    by_cases hl : n + 1 = 31
    · -- tile 31
      have hlst : isLast (grid0.coords ⟨n + 1, hn⟩) := (isLast_iff ⟨n + 1, hn⟩).mpr hl
      rw [leaves3_last V c _ hlst]
      unfold outAt; rw [accAt_succ, degAt_succ]
      iintro ⟨⟨Ha, Hd, Hl, Hp⟩, Ho, ⟨%d0, H0⟩, ⟨%d1, H1⟩, ⟨%d2, H2⟩, ⟨%d3, H3⟩⟩
      iapply (last_tile c Set.univ _ _ _ _ _ _ _ _ _ _ _ _ _ (tile V c 0 ⟨n + 1, hn⟩) (tile V c 1 ⟨n + 1, hn⟩) (tile V c 2 ⟨n + 1, hn⟩) hfst hlst _ _ _)
      isplitl [H0]; · iexact H0
      isplitl [H1]; · iexact H1
      isplitl [H2]; · iexact H2
      isplitl [H3]; · iexists _; iexact H3
      isplitl [Ha]; · iexact Ha
      isplitl [Hd]; · iexact Hd
      iintro ⟨H0, H1, H2, H3, Ha, Hd⟩
      isplitl [Ha Hd Hl Hp]
      · isplitl [Ha]; · iexact Ha
        isplitl [Hd]; · iexact Hd
        isplitl [Hl]; · iexact Hl
        iexact Hp
      isplitl [Ho]; · iexact Ho
      isplitl [H0]; · iexact H0
      isplitl [H1]; · iexact H1
      isplitl [H2]; · iexact H2
      iexact H3
    · -- tiles 1 to 30
      have hlst : ¬isLast (grid0.coords ⟨n + 1, hn⟩) := fun h => hl ((isLast_iff ⟨n + 1, hn⟩).mp h)
      rw [leaves3_idle V c _ hlst]
      iintro ⟨⟨Ha, Hd, Hl, Hp⟩, Ho, ⟨%d0, H0⟩, ⟨%d1, H1⟩, ⟨%d2, H2⟩, ⟨%d3, H3⟩⟩
      iapply (middle_tile c Set.univ _ _ _ _ _ _ _ _ _ _ _ _ _ (tile V c 0 ⟨n + 1, hn⟩) (tile V c 1 ⟨n + 1, hn⟩) (tile V c 2 ⟨n + 1, hn⟩) hfst hlst _ _ _ _)
      isplitl [H0]; · iexact H0
      isplitl [H1]; · iexact H1
      isplitl [H2]; · iexact H2
      isplitl [H3]; · iexact H3
      isplitl [Ha]; · iexact Ha
      isplitl [Hd]; · iexact Hd
      iintro ⟨H0, H1, H2, H3, Ha, Hd⟩
      isplitl [Ha Hd Hl Hp]
      · isplitl [Ha]; · iexact Ha
        isplitl [Hd]; · iexact Hd
        isplitl [Hl]; · iexact Hl
        iexact Hp
      isplitl [Ho]; · iexact Ho
      isplitl [H0]; · iexact H0
      isplitl [H1]; · iexact H1
      isplitl [H2]; · iexact H2
      iexists _; iexact H3

/-- The pipeline rule's obligation for the body, at every tile. -/
theorem body_obligation (c : Dev nD) : BodyObligation (dat (F := F) V c) (defs₀ (F := F)) Variants.none () Set.univ := fun t => by
  rw [bigSep_W0, bigSep_W0]
  exact body_at V c t

/-- The region enters with the scratch arrays at anything, -/
theorem enter (c : Dev nD) : (Pipeline.ΦA spec0 c : sProp 𝕄) ⊢ (dat V c).Φ 0 := by
  rw [show (dat V c).Φ 0 = Pipeline.ΦA spec0 c from rfl]

/-- and leaves forgetting what they hold. -/
theorem leave (c : Dev nD) : (dat V c).Φ (Fin.last cfg0.N) ⊢ (Pipeline.ΦA spec0 c : sProp 𝕄) := by
  rw [show (dat V c).Φ (Fin.last cfg0.N) = between V c 32 (by decide) from rfl, between_succ]
  iintro ⟨Ha, Hd, Hl, Hp⟩
  iapply (close_any (F := F) c)
  isplitl [Ha]; · iexists _; iexact Ha
  isplitl [Hd]; · iexists _; iexact Hd
  isplitl [Hl]; · iexact Hl
  iexact Hp

end Cert.KernelIdeal.Edge

end
-- ==== Proof.NodeRegion.lean ====
/-
  The second launch streams the 16384 rows of H once more in 32 tiles of 512 rows, with the whole edge-message
  array resident, and writes for each tile `(1 / (Σ_e H[row, e] + ε)) · (H_tile · edge)[row, f]` to the matching 512
  rows of the result. Nothing is carried from tile to tile. This module names each window's tile, what the body
  stores, the record the pipeline rule is instantiated with, and proves the body's triple at every grid point.
-/
import proofs.«117672_j79620103733959_1_alg».proof.Proof.Gen.KernelIdeal.Launch
import proofs.«117672_j79620103733959_1_alg».proof.Proof.Gen.KernelIdeal.Skeleton
import proofs.«117672_j79620103733959_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.WholeAccess
set_option maxRecDepth 16384

noncomputable section

namespace Cert.KernelIdeal.Node

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic

/-! ## Tiles -/

/-- Window `w`'s tile at grid point `t`, read off the array the region was entered with. -/
def tile (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The 512 rows of `H` at tile `t`, and the whole edge-message array. -/
abbrev hT (c : Dev nD) (t : Fin cfg1.N) : Vec F S512x4096 .f32 := tile V c 0 t
abbrev eT (c : Dev nD) (t : Fin cfg1.N) : Vec F S4096x128 .f32 := tile V c 1 t

/-- What tile `t` stores: its rows of `H` times the edge messages, each row scaled by the reciprocal of its degree. -/
def outAt (c : Dev nD) (t : Fin cfg1.N) : Vec F S512x128 .f32 := k1_pay1 (hT V c t) (eT V c t)

/-! ## The record for the pipeline rule -/

def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => outAt V c t
  Φ _ := Pipeline.ΦA spec1 c
  q _ := fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = outAt V c t := by dsimp only [dat]

/-- An input window's staging buffer holds its tile when the body runs, fetched there or kept from the point before. -/
theorem before0 (c : Dev nD) (t : Fin cfg1.N) (d) : (dat V c).before 0 t d = tile V c 0 t :=
  ((dat V c).before_in_eq_fetched 0 rfl (fun _ => rfl) (fun _ _ _ => rfl)
      (fun t => by rw [dat_after0]; unfold Dat.blockOf tile; rw [dat_A]; try rfl) t d).trans
    (by unfold Dat.fetched Dat.blockOf tile; rw [dat_A]; try rfl)
theorem before1 (c : Dev nD) (t : Fin cfg1.N) (d) : (dat V c).before 1 t d = tile V c 1 t :=
  ((dat V c).before_in_eq_fetched 1 rfl (fun _ => rfl) (fun _ _ _ => rfl)
      (fun t => by rw [dat_after1]; unfold Dat.blockOf tile; rw [dat_A]; try rfl) t d).trans
    (by unfold Dat.fetched Dat.blockOf tile; rw [dat_A]; try rfl)

/-! ## The body -/

/-- The whole-buffer rectangle the body's one store goes through. -/
abbrev whole512x128 : Rect S512x128 := Rect.unit (s := S512x128) ![0, 0] S512x128.size inb_S512x128_S512x128_0_0

set_option maxHeartbeats 1000000 in
/-- On any whole staging buffers holding a tile `h` of `H` and the edge messages `e`, the body leaves both as they were and
    the result buffer at `k1_pay1 h e`. -/
theorem body_triple (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S512x128 .f32) (harg3 : arg3.IsWhole)
    (h : Vec F S512x4096 .f32) (e : Vec F S4096x128 .f32) (K : PUnit → sProp 𝕄) :
    iprop(owns (c : Thread nD τ) arg1 fullShare h ∗ owns (c : Thread nD τ) arg2 fullShare e ∗ (∃ d, owns (c : Thread nD τ) arg3 fullShare d)
        ∗ (iprop(owns (c : Thread nD τ) arg1 fullShare h ∗ owns (c : Thread nD τ) arg2 fullShare e
            ∗ owns (c : Thread nD τ) arg3 fullShare (k1_pay1 h e)) -∗ K ⟨⟩))
      ⊢ wp frame (wpE (defs₀ (F := F)) Variants.none c none) E (cc1__node_msg_kernel i arg1 harg1 arg2 harg2 arg3 harg3) K := by
  simp only [cc1__node_msg_kernel_eq_skeleton]; unfold cc1__node_msg_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [Cert.WholeAccess.read_last_store _ _ Cert.WholeAccess.zeros2, Cert.WholeAccess.load_whole _ _ Cert.WholeAccess.zeros2,
    Cert.WholeAccess.load_whole _ _ Cert.WholeAccess.zeros2]

/-! ## The body at a grid point -/

/-- What the body is handed at tile `t`: the region's invariant, what the core owes, and each window's current buffer. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At every tile the two input buffers hold their tiles, so the triple applies; the invariant and the dues pass through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before0, before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation for the body, at every tile. -/
theorem body_obligation (c : Dev nD) : BodyObligation (dat (F := F) V c) (defs₀ (F := F)) Variants.none () Set.univ := fun t => by
  rw [bigSep_W1, bigSep_W1]
  exact body_at V c t

end Cert.KernelIdeal.Node

end
-- ==== Proof.TwoLaunches.lean ====
/-
  The program is two launches in a row: the first leaves the edge messages in `main_v0`, the second reads
  `main_v0` and `H` and leaves the node messages in `main_v1`. This module follows the machine's buffers through
  both: at launch they hold the memory's contents; after the first launch `main_v0` holds what its pipeline wrote
  back and nothing else has changed; after the second the same for `main_v1`. Each launch is a region of the
  several-regions rule, entered from "every unscoped buffer at the contents so far, the generator register at
  some state, nothing owed" and left at the same with the contents advanced. The conclusion: every execution
  terminates and every final memory holds, in each unscoped buffer, the last of those contents; from it the three
  argument arrays are unchanged and `main_v1` is what the second pipeline wrote back.
-/
import proofs.«117672_j79620103733959_1_alg».proof.Proof.EdgeRegion
import proofs.«117672_j79620103733959_1_alg».proof.Proof.NodeRegion
import Idealize.ShloMosaic.Lib.Pipeline.RegionsLoop
import Idealize.ShloMosaic.Lib.Pipeline.FrameSuffix

set_option maxRecDepth 16384

noncomputable section

namespace Cert.KernelIdeal.TwoLaunches

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at launch, between the launches, and at the end -/

/-- Core `c`'s buffers at launch. -/
abbrev B0 : Dev nD → Valuation τ sig (Elt F) := fun c b => m (c, b)
abbrev V0 : (c : Dev nD) → (b : Ref sig .tc) → Buf (Elt F) ((c : Thread nD τ).loc b) := fun c b => B0 m c b

/-- After the first launch: its arrays at what its pipeline leaves, every other buffer as before. -/
def B1 (c : Dev nD) : Valuation τ sig (Elt F) :=
  Pipeline.withArrays spec0 c (B0 m c) fun w => (Edge.dat (V0 m) c).arrAt w cfg0.N
abbrev V1 : (c : Dev nD) → (b : Ref sig .tc) → Buf (Elt F) ((c : Thread nD τ).loc b) := fun c b => B1 m c b

theorem B1_arr (c : Dev nD) (w : Fin cfg0.W) :
    B1 m c (Proc.devRef .tc (Pipeline.arrRef spec0 w)) = (Edge.dat (V0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb

/-- After the second launch. -/
def B2 (c : Dev nD) : Valuation τ sig (Elt F) :=
  Pipeline.withArrays spec1 c (B1 m c) fun w => (Node.dat (V1 m) c).arrAt w cfg1.N
abbrev V2 : (c : Dev nD) → (b : Ref sig .tc) → Buf (Elt F) ((c : Thread nD τ).loc b) := fun c b => B2 m c b

theorem B2_arr (c : Dev nD) (w : Fin cfg1.W) :
    B2 m c (Proc.devRef .tc (Pipeline.arrRef spec1 w)) = (Node.dat (V1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb

/-! ### What the second launch is entered with -/

/-- `H` is still the launch's. -/
theorem V1_H (c : Dev nD) : V1 m c main_arg1 = m ((c : Thread nD τ).loc main_arg1) :=
  (B1_arr m c 1).trans (((Edge.dat (V0 m) c).arrAt_in 1 rfl _).trans (Edge.dat_A (V0 m) c 1))
/-- `main_v0` holds what the first pipeline wrote back. -/
theorem V1_edge (c : Dev nD) : V1 m c main_v0 = (Edge.dat (V0 m) c).arrAt 3 cfg0.N := B1_arr m c 3

/-! ### What the end holds -/

theorem B2_x (c : Dev nD) : B2 m c (Proc.devRef .tc main_arg0) = m ((c : Thread nD τ).loc main_arg0) :=
  (B2_other m c main_arg0 (by decide)).trans
    ((B1_arr m c 0).trans (((Edge.dat (V0 m) c).arrAt_in 0 rfl _).trans (Edge.dat_A (V0 m) c 0)))
theorem B2_H (c : Dev nD) : B2 m c (Proc.devRef .tc main_arg1) = m ((c : Thread nD τ).loc main_arg1) :=
  (B2_arr m c 0).trans (((Node.dat (V1 m) c).arrAt_in 0 rfl _).trans ((Node.dat_A (V1 m) c 0).trans (V1_H m c)))
theorem B2_W (c : Dev nD) : B2 m c (Proc.devRef .tc main_arg2) = m ((c : Thread nD τ).loc main_arg2) :=
  (B2_other m c main_arg2 (by decide)).trans
    ((B1_arr m c 2).trans (((Edge.dat (V0 m) c).arrAt_in 2 rfl _).trans (Edge.dat_A (V0 m) c 2)))
theorem B2_node (c : Dev nD) : B2 m c (Proc.devRef .tc main_v1) = (Node.dat (V1 m) c).arrAt 2 cfg1.N := B2_arr m c 2

/-! ## The two regions -/

/-- No pipeline has a prefetched table. -/
abbrev adm : (p : Fin 2) → (pcfgs (F := F) p).Adm := fun p => (cfgs p).toPCfg_adm

/-- Each pipeline's record, at the contents its launch is entered with. -/
def pdats : (p : Fin 2) → (c : Dev nD) → Dat τ (Elt F) Unit ℕ (UR sig nD τ) ℕ (Pipeline.pin (pcfgs (F := F)) adm p) c
  | ⟨0, _⟩ => fun c => Edge.dat (V0 m) c
  | ⟨1, _⟩ => fun c => Node.dat (V1 m) c

abbrev 𝒱₀ : Variants := Variants.none
/-- No core owes another anything. -/
abbrev L : GSem nD τ sig → Finset Unit := fun _ => ∅
abbrev lv : GSem nD τ sig → Unit → ℕ := fun _ _ => 0

/-- What rides beside the buffers: the generator register at some state, and nothing owed. -/
abbrev aside (c : Dev nD) : sProp 𝕄 := iprop((∃ r, prngReg c r) ∗ ∃ W, owes (c : Thread nD τ) (0 : CellTallies nD τ sig Unit) W)

/-- The thread state at contents `B`. -/
abbrev at_ (B : Dev nD → Valuation τ sig (Elt F)) (c : Dev nD) : sProp 𝕄 :=
  iprop(StableHlo.held (c : Thread nD τ) (Pipeline.ucRefs τ sig) (B c) ∗ aside c)

theorem edge_exit (c : Dev nD) (w : Fin cfg0.W) : (Edge.dat (V0 m) c).arrAt w cfg0.N = V1 m c (Pipeline.arrRef spec0 w) :=
  (B1_arr m c w).symm
theorem edge_rest (c : Dev nD) : ∀ b, b ∉ Finset.univ.image (Pipeline.arrRef spec0) → V1 m c b = V0 m c b :=
  fun b hb => B1_other m c b fun w e => hb (Finset.mem_image.mpr ⟨w, Finset.mem_univ _, e⟩)
theorem node_exit (c : Dev nD) (w : Fin cfg1.W) : (Node.dat (V1 m) c).arrAt w cfg1.N = V2 m c (Pipeline.arrRef spec1 w) :=
  (B2_arr m c w).symm
theorem node_rest (c : Dev nD) : ∀ b, b ∉ Finset.univ.image (Pipeline.arrRef spec1) → V2 m c b = V1 m c b :=
  fun b hb => B2_other m c b fun w e => hb (Finset.mem_image.mpr ⟨w, Finset.mem_univ _, e⟩)

set_option backward.isDefEq.respectTransparency.types false in
/-- The first launch as a region: entered at `B0`, left at `B1`. Its arrays are split off the unscoped buffers at entry and
    put back at exit; the generator register goes into the region's invariant and comes back; the scratch arrays enter
    at anything and leave forgotten. -/
def edgeRegion : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V0 m) c).loose
  hwaits := Pipeline.hwaits_of_owed_zero _ _ _ _ L lv 0 fun _ _ => rfl
  pre := at_ (B0 m)
  post := at_ (B1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hbufs, Hg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hg]; · iexact Hg
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hg, -, Hsc⟩
      isplitl [Hsc]; · iexact Hsc
      iexact Hg
    exact h.trans (Edge.enter (V0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hsc, Hg⟩
      isplitl [Hg]; · iexact Hg
      isplitr; · iempintro
      iexact Hsc
    exact (Edge.leave (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (edge_exit m c) (edge_rest m c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%W, -, Howe⟩; iexists W; iexact Howe

set_option backward.isDefEq.respectTransparency.types false in
/-- The second launch as a region: entered at `B1`, left at `B2`; it keeps nothing between tiles. -/
def nodeRegion : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V1 m) c).loose
  hwaits := Pipeline.hwaits_of_owed_zero _ _ _ _ L lv 1 fun _ _ => rfl
  pre := at_ (B1 m)
  post := at_ (B2 m)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hbufs, Hg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hg]; · iexact Hg
    iexact Hrest
  hin c := by
    rw [show (pdats m 1 c).Φ 0 = Pipeline.ΦA spec1 c from rfl]; unfold Pipeline.ΦA
    iintro ⟨Hg, -, Hsc⟩
    isplitl [Hsc]; · iexact Hsc
    iexact Hg
  hout c := by
    rw [Pipeline.ownSems0_none, show (pdats m 1 c).Φ (Fin.last _) = Pipeline.ΦA spec1 c from rfl]; unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (node_exit m c) (node_rest m c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%W, -, Howe⟩; iexists W; iexact Howe

/-! ## The run -/

/-- @main's two items. -/
abbrev segs : List (Pipeline.Seg (pcfgs (F := F)) adm (pdats m) () defs₀ 𝒱₀ L lv) :=
  [ .region (edgeRegion m), .region (nodeRegion m) ]

theorem main_is_segs (c : Dev nD) : main (F := F) c = Pipeline.Seg.run (segs m) :=
  main_segs adm (pdats m) () 𝒱₀ L lv (edgeRegion m) (nodeRegion m) c

/-- An unscoped buffer of the TensorCore is among those the thread state holds. -/
theorem held_of_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates without a fault, and the final
    memory holds in every unscoped buffer the contents `B2`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = B2 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (B0 m))
    (Tₙ := fun c => iprop(StableHlo.held (c : Thread nD τ) (Pipeline.ucRefs τ sig) (B2 m c) ∗ ∃ r, prngReg c r))
    (hch := ⟨fun _ => .rfl, fun _ => .rfl, fun c => by
      show (at_ (B2 m) c : sProp 𝕄) ⊢ _
      iintro ⟨Hh, Hg, Ho⟩
      isplitl [Hh Hg]
      · isplitl [Hh]; · iexact Hh
        iexact Hg
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c => h c)

end Cert.KernelIdeal.TwoLaunches

end
-- ==== Proof.Bits.EdgeData.lean ====
/-
  The first launch streams the 16384 rows of x and H in 32 tiles of 512 rows and keeps two running sums in
  scratch memory: `acc[e, f] = Σ_rows H[row, e] · (x W)[row, f]` and `deg[e] = Σ_rows H[row, e]`. The first tile
  starts both from zero; the last tile, after adding its share, writes `(1 / (deg[e] + ε)) · acc[e, f]` to the
  result. This module names what the two scratch arrays hold after each tile (by recursion on the tile), what
  the last tile writes, and the record the pipeline rule is instantiated with: each input window holds its tile,
  the result window is touched at the last tile only, and between two tiles the scratch arrays hold the running
  sums.
-/
import proofs.«117672_j79620103733959_1_alg».proof.Proof.Gen.Kernel.Launch
import proofs.«117672_j79620103733959_1_alg».proof.Proof.Gen.Kernel.Skeleton
import proofs.«117672_j79620103733959_1_alg».proof.Proof.Gen.Kernel.Points
import Idealize.ShloMosaic.Lib.Pipeline.FrameBody
import Idealize.ShloMosaic.Lib.Pipeline.Frame

set_option maxRecDepth 16384

noncomputable section

namespace Cert.Kernel.Edge

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

/-! ## Tiles -/

/-- Window `w`'s tile at grid point `t`: the rows the pipeline stages there, read off the array the region was entered with. -/
def tile (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 512 rows of `x`, of `H`, and the whole of `W`, at tile `t`. -/
abbrev xT (c : Dev nD) (t : Fin cfg0.N) : Vec F S512x128 .f32 := tile V c 0 t
abbrev hT (c : Dev nD) (t : Fin cfg0.N) : Vec F S512x4096 .f32 := tile V c 1 t
abbrev wT (c : Dev nD) (t : Fin cfg0.N) : Vec F S128x128 .f32 := tile V c 2 t

/-! ## The running sums -/

/-- `acc` after tile `n`: the zero array plus the tiles' contributions `Hᵀ (x W)` up to `n`, added in tile order. -/
def accAt (c : Dev nD) : (n : ℕ) → n < cfg0.N → Vec F S4096x128 .f32
  | 0, h => k0_pay3 (xT V c ⟨0, h⟩) (hT V c ⟨0, h⟩) (wT V c ⟨0, h⟩) k0_pay1
  | n + 1, h => k0_pay3 (xT V c ⟨n + 1, h⟩) (hT V c ⟨n + 1, h⟩) (wT V c ⟨n + 1, h⟩) (accAt c n (Nat.lt_of_succ_lt h))

/-- `deg` after tile `n`: zero plus the tiles' column sums of `H` up to `n`. -/
def degAt (c : Dev nD) : (n : ℕ) → n < cfg0.N → Vec F S1x4096 .f32
  | 0, h => k0_pay4 (hT V c ⟨0, h⟩) k0_pay2
  | n + 1, h => k0_pay4 (hT V c ⟨n + 1, h⟩) (degAt c n (Nat.lt_of_succ_lt h))

theorem accAt_zero (c : Dev nD) (h : 0 < cfg0.N) :
    accAt V c 0 h = k0_pay3 (xT V c ⟨0, h⟩) (hT V c ⟨0, h⟩) (wT V c ⟨0, h⟩) k0_pay1 := rfl
theorem accAt_succ (c : Dev nD) (n : ℕ) (h : n + 1 < cfg0.N) :
    accAt V c (n + 1) h = k0_pay3 (xT V c ⟨n + 1, h⟩) (hT V c ⟨n + 1, h⟩) (wT V c ⟨n + 1, h⟩) (accAt V c n (Nat.lt_of_succ_lt h)) := rfl
theorem degAt_zero (c : Dev nD) (h : 0 < cfg0.N) :
    degAt V c 0 h = k0_pay4 (hT V c ⟨0, h⟩) k0_pay2 := rfl
theorem degAt_succ (c : Dev nD) (n : ℕ) (h : n + 1 < cfg0.N) :
    degAt V c (n + 1) h = k0_pay4 (hT V c ⟨n + 1, h⟩) (degAt V c n (Nat.lt_of_succ_lt h)) := rfl

/-- What a tile that is the last one writes to the result: the running sums after it, scaled row by row. -/
def outAt (c : Dev nD) (t : Fin cfg0.N) : Vec F S4096x128 .f32 :=
  k0_pay5 (degAt V c t.val t.isLt) (accAt V c t.val t.isLt)

/-! ## The scratch arrays between tiles -/

/-- The two scratch arrays as whole buffers. -/
abbrev accM : Memref sig .tc .vmem S4096x128 .f32 := Memref.whole cc0_scratch0
abbrev degM : Memref sig .tc .vmem S1x4096 .f32 := Memref.whole cc0_scratch1

/-- The second launch's staging buffers, which this region does not touch: each at some contents. -/
def later (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the region holds besides the windows before tile `n`: before the first tile the scratch arrays hold anything;
    afterwards they hold the running sums of the tile before. The generator register and the other launch's buffers ride along. -/
def between (c : Dev nD) : (n : ℕ) → n ≤ cfg0.N → sProp 𝕄
  | 0, _ => Pipeline.ΦA spec0 c
  | n + 1, h => iprop(owns (c : Thread nD τ) accM fullShare (accAt V c n h) ∗ owns (c : Thread nD τ) degM fullShare (degAt V c n h)
      ∗ later c ∗ ∃ r, prngReg c r)

theorem between_zero (c : Dev nD) (h : 0 ≤ cfg0.N) : between V c 0 h = Pipeline.ΦA spec0 c := rfl
theorem between_succ (c : Dev nD) (n : ℕ) (h : n + 1 ≤ cfg0.N) :
    between V c (n + 1) h = iprop(owns (c : Thread nD τ) accM fullShare (accAt V c n h) ∗ owns (c : Thread nD τ) degM fullShare (degAt V c n h)
      ∗ later c ∗ ∃ r, prngReg c r) := rfl

/-- Before the first tile: the scratch arrays at anything. -/
theorem start_open (c : Dev nD) :
    (Pipeline.ΦA spec0 c : sProp 𝕄) ⊢ iprop((∃ a, owns (c : Thread nD τ) accM fullShare a) ∗ (∃ d, owns (c : Thread nD τ) degM fullShare d)
      ∗ later c ∗ ∃ r, prngReg c r) := by
  unfold Pipeline.ΦA later; rw [scopedRest0_eq]; simp only [accM, degM, owns_whole]
  iintro ⟨⟨Ha, Hd, H1, H2, H3, H4, H5⟩, Hp⟩
  isplitl [Ha]; · iexact Ha
  isplitl [Hd]; · iexact Hd
  isplitl [H1 H2 H3 H4 H5]
  · isplitl [H1]; · iexact H1
    isplitl [H2]; · iexact H2
    isplitl [H3]; · iexact H3
    isplitl [H4]; · iexact H4
    iexact H5
  iexact Hp

/-- Whatever the scratch arrays hold, the region may close on them. -/
theorem close_any (c : Dev nD) :
    iprop((∃ a, owns (c : Thread nD τ) accM fullShare a) ∗ (∃ d, owns (c : Thread nD τ) degM fullShare d)
      ∗ later c ∗ ∃ r, prngReg c r) ⊢ (Pipeline.ΦA spec0 c : sProp 𝕄) := by
  unfold Pipeline.ΦA later; rw [scopedRest0_eq]; simp only [accM, degM, owns_whole]
  iintro ⟨Ha, Hd, ⟨H1, H2, H3, H4, H5⟩, Hp⟩
  isplitr [Hp]
  · isplitl [Ha]; · iexact Ha
    isplitl [Hd]; · iexact Hd
    isplitl [H1]; · iexact H1
    isplitl [H2]; · iexact H2
    isplitl [H3]; · iexact H3
    isplitl [H4]; · iexact H4
    iexact H5
  iexact Hp

/-! ## The record for the pipeline rule -/

/-- Region 0's record on core `c`: the arrays as entered; each input window at its tile after the body; the result window
    at `outAt` (consulted at the last tile only: elsewhere the window is idle); between tiles `between`; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outAt V c t
  Φ t := between V c t.val (Nat.le_of_lt_succ t.isLt)
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = tile V c 2 t := by dsimp only [dat]
theorem dat_after3 (c : Dev nD) (t : Fin cfg0.N) : (dat V c).after 3 t = outAt V c t := by dsimp only [dat]
theorem dat_Φ (c : Dev nD) (t : Fin (cfg0.N + 1)) : (dat V c).Φ t = between V c t.val (Nat.le_of_lt_succ t.isLt) := by dsimp only [dat]

/-- An input window's staging buffer holds its tile when the body runs, whether the pipeline fetched it there or kept
    it: the body leaves the tile in place, and an unfetched window's block index has not moved. -/
theorem before0 (c : Dev nD) (t : Fin cfg0.N) (d) : (dat V c).before 0 t d = tile V c 0 t :=
  ((dat V c).before_in_eq_fetched 0 rfl (fun _ => rfl) (fun _ _ _ => rfl)
      (fun t => by rw [dat_after0]; unfold Dat.blockOf tile; rw [dat_A]; try rfl) t d).trans
    (by unfold Dat.fetched Dat.blockOf tile; rw [dat_A]; try rfl)
theorem before1 (c : Dev nD) (t : Fin cfg0.N) (d) : (dat V c).before 1 t d = tile V c 1 t :=
  ((dat V c).before_in_eq_fetched 1 rfl (fun _ => rfl) (fun _ _ _ => rfl)
      (fun t => by rw [dat_after1]; unfold Dat.blockOf tile; rw [dat_A]; try rfl) t d).trans
    (by unfold Dat.fetched Dat.blockOf tile; rw [dat_A]; try rfl)
theorem before2 (c : Dev nD) (t : Fin cfg0.N) (d) : (dat V c).before 2 t d = tile V c 2 t :=
  ((dat V c).before_in_eq_fetched 2 rfl (fun _ => rfl) (fun _ _ _ => rfl)
      (fun t => by rw [dat_after2]; unfold Dat.blockOf tile; rw [dat_A]; try rfl) t d).trans
    (by unfold Dat.fetched Dat.blockOf tile; rw [dat_A]; try rfl)

end Cert.Kernel.Edge

end
-- ==== Proof.Bits.EdgeBody.lean ====
/-
  The first launch's body, run at a grid point. It branches twice on the tile number: the first tile zeroes the
  two scratch arrays before adding to them, the last tile also writes the scaled result. So there are three ways
  through it (a grid of 32 tiles has no tile that is both first and last), each proved as a triple over arbitrary
  whole buffers: the scratch arrays go from what they held (anything, at the first tile) to the updated running
  sums, the input buffers are left as they were, and the result buffer is untouched except at the last tile.
  Then the three are laid against the grid: at tile 0 the first, at tile 31 the last, in between the middle one,
  with the scratch contents of `between` threading through.
-/
import proofs.«117672_j79620103733959_1_alg».proof.Proof.Gen.Kernel.Launch
import proofs.«117672_j79620103733959_1_alg».proof.Proof.Gen.Kernel.Skeleton
import proofs.«117672_j79620103733959_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.WholeAccess
import proofs.«117672_j79620103733959_1_alg».proof.Proof.Bits.EdgeData
set_option maxRecDepth 16384

noncomputable section

namespace Cert.Kernel.Edge

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic Cert.WholeAccess

/-! ## Which tiles take which branch -/

/-- The condition of the body's first branch, as the body computes it from the tile number. -/
abbrev isFirst (i : grid0.Coords) : Prop :=
  (Scalar.cmpi .ne (Scalar.extui (Scalar.cmpi .eq (BitVec.ofNat 32 (i 0).val) 0#32)) 0#32) = 1#1
/-- The condition of its second branch. -/
abbrev isLast (i : grid0.Coords) : Prop := k0_cond2 i = 1#1

/-- Over the 32 tiles: the first branch is taken at tile 0 only, the second at tile 31 only. -/
theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

/-- The input windows are live at every tile; the result window is live at the last tile, idle and not written back elsewhere. -/
theorem result_idle : ∀ t : Fin cfg0.N, ¬isLast (grid0.coords t) → cfg0.idle 3 (grid0.coords t) = true := by decide +kernel
theorem result_kept : ∀ t : Fin cfg0.N, ¬isLast (grid0.coords t) → (cfg0.win 3).flush t = false := by decide +kernel
theorem result_live : ∀ t : Fin cfg0.N, isLast (grid0.coords t) → cfg0.idle 3 (grid0.coords t) = false := by decide +kernel

/-! ## The three ways through the body -/

section Triples

variable (c : Dev nD) (E : Set ℕ) (i : grid0.Coords)
  (arg1 : Memref sig .tc .vmem S512x128 .f32) (harg1 : arg1.IsWhole) (arg2 : Memref sig .tc .vmem S512x4096 .f32) (harg2 : arg2.IsWhole)
  (arg3 : Memref sig .tc .vmem S128x128 .f32) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x4096 .f32) (harg6 : arg6.IsWhole)
  (x : Vec F S512x128 .f32) (h : Vec F S512x4096 .f32) (w : Vec F S128x128 .f32)

set_option maxHeartbeats 2000000 in
/-- The first tile: whatever the scratch arrays held, they end at the tile's contribution added to zero. -/
theorem first_tile (hf : isFirst i) (hl : ¬isLast i) (y : Vec F S4096x128 .f32) (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare y ∗ (∃ a, owns (c : Thread nD τ) arg5 fullShare a) ∗ (∃ d, owns (c : Thread nD τ) arg6 fullShare d)
        ∗ (iprop(owns (c : Thread nD τ) arg1 fullShare x ∗ owns (c : Thread nD τ) arg2 fullShare h ∗ owns (c : Thread nD τ) arg3 fullShare w
            ∗ owns (c : Thread nD τ) arg4 fullShare y
            ∗ owns (c : Thread nD τ) arg5 fullShare (k0_pay3 x h w k0_pay1)
            ∗ owns (c : Thread nD τ) arg6 fullShare (k0_pay4 h k0_pay2)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%f4, %hf4, H4⟩, ⟨%a5, %f5, -, H5⟩, ⟨%d6, %f6, -, H6⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_words
    rw [read_last_store _ _ zeros2, load_whole _ _ zeros2, load_whole _ _ zeros2, load_whole _ _ zeros2, load_last_store _ zeros2]
  · iexists _; isplitr
    swap; · iexact H6
    ipureintro; sl_unfold_words
    rw [read_last_store _ _ zeros2, load_whole _ _ zeros2, load_last_store _ zeros2]

set_option maxHeartbeats 2000000 in
/-- A tile that is neither first nor last: the scratch arrays go from `a`, `d` to the tile's contribution added to them. -/
theorem middle_tile (hf : ¬isFirst i) (hl : ¬isLast i) (y : Vec F S4096x128 .f32) (a : Vec F S4096x128 .f32) (d : Vec F S1x4096 .f32)
    (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare y ∗ owns (c : Thread nD τ) arg5 fullShare a ∗ owns (c : Thread nD τ) arg6 fullShare d
        ∗ (iprop(owns (c : Thread nD τ) arg1 fullShare x ∗ owns (c : Thread nD τ) arg2 fullShare h ∗ owns (c : Thread nD τ) arg3 fullShare w
            ∗ owns (c : Thread nD τ) arg4 fullShare y
            ∗ owns (c : Thread nD τ) arg5 fullShare (k0_pay3 x h w a)
            ∗ owns (c : Thread nD τ) arg6 fullShare (k0_pay4 h d)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_words
    rw [read_last_store _ _ zeros2, load_whole _ _ zeros2, load_whole _ _ zeros2, load_whole _ _ zeros2, load_whole _ _ zeros2]
  · iexists _; isplitr
    swap; · iexact H6
    ipureintro; sl_unfold_words
    rw [read_last_store _ _ zeros2, load_whole _ _ zeros2, load_whole _ _ zeros2]

set_option maxHeartbeats 2000000 in
/-- The last tile: as a middle tile, and the result buffer, whatever it held, ends at the scaled running sums. -/
theorem last_tile (hf : ¬isFirst i) (hl : isLast i) (a : Vec F S4096x128 .f32) (d : Vec F S1x4096 .f32) (K : PUnit → sProp 𝕄) :
    iprop(owns (c : Thread nD τ) arg1 fullShare x ∗ owns (c : Thread nD τ) arg2 fullShare h ∗ owns (c : Thread nD τ) arg3 fullShare w
        ∗ (∃ y, owns (c : Thread nD τ) arg4 fullShare y) ∗ owns (c : Thread nD τ) arg5 fullShare a ∗ owns (c : Thread nD τ) arg6 fullShare d
        ∗ (iprop(owns (c : Thread nD τ) arg1 fullShare x ∗ owns (c : Thread nD τ) arg2 fullShare h ∗ owns (c : Thread nD τ) arg3 fullShare w
            ∗ owns (c : Thread nD τ) arg4 fullShare (k0_pay5 (k0_pay4 h d) (k0_pay3 x h w a))
            ∗ owns (c : Thread nD τ) arg5 fullShare (k0_pay3 x h w a)
            ∗ owns (c : Thread nD τ) arg6 fullShare (k0_pay4 h d)) -∗ K ⟨⟩))
      ⊢ wp frame (wpE (defs₀ (F := F)) Variants.none c none) E
          (cc0__edge_msg_kernel i arg1 harg1 arg2 harg2 arg3 harg3 arg4 harg4 arg5 harg5 arg6 harg6) K := by
  simp only [cc0__edge_msg_kernel_eq_skeleton]; unfold cc0__edge_msg_kernel_skel
  unfold owns
  iintro ⟨⟨%f1, %hf1, H1⟩, ⟨%f2, %hf2, H2⟩, ⟨%f3, %hf3, H3⟩, ⟨%y4, %f4, -, H4⟩, ⟨%f5, %hf5, H5⟩, ⟨%f6, %hf6, H6⟩, Hk⟩
  subst hf1; subst hf2; subst hf3; subst hf5; subst hf6
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro; sl_unfold_words
    rw [read_last_store _ _ zeros2, load_last_store _ zeros2, load_last_store _ zeros2]
    repeat rw [load_whole _ _ zeros2]
  isplitl [H5]
  · iexists _; isplitr
    swap; · iexact H5
    ipureintro; sl_unfold_words
    rw [read_last_store _ _ zeros2, load_whole _ _ zeros2, load_whole _ _ zeros2, load_whole _ _ zeros2, load_whole _ _ zeros2]
  · iexists _; isplitr
    swap; · iexact H6
    ipureintro; sl_unfold_words
    rw [read_last_store _ _ zeros2, load_whole _ _ zeros2, load_whole _ _ zeros2]

end Triples

end Cert.Kernel.Edge

end
-- ==== Proof.Bits.EdgeRegion.lean ====
/-
  The first launch's body at each of the 32 grid points, against the record of EdgeData: tile 0 goes the first
  way through the body and turns scratch arrays holding anything into the first running sums; tiles 1 to 30 go the
  middle way from the running sums of the tile before to their own; tile 31 goes the last way and also fills the
  result buffer. At every tile but the last the result window is idle: its buffer is handed back as it was found.
-/
import proofs.«117672_j79620103733959_1_alg».proof.Proof.Gen.Kernel.Launch
import proofs.«117672_j79620103733959_1_alg».proof.Proof.Gen.Kernel.Skeleton
import proofs.«117672_j79620103733959_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.Bits.EdgeBody
set_option maxRecDepth 16384

noncomputable section

namespace Cert.Kernel.Edge

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic

/-- What the body is handed at tile `t`: what the region holds between tiles, what the core owes, each window's current buffer. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it hands back. -/
def returned (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- An input window is live everywhere: the body leaves its buffer at the tile. -/
theorem leaves0 (c : Dev nD) (t : Fin cfg0.N) : (dat V c).leavesExact 0 t = owns (c : Thread nD τ) (st0_0 t) fullShare (tile V c 0 t) := by
  unfold Dat.leavesExact; rw [show cfg0.idle 0 (cfg0.grid.coords t) = false from rfl, dat_after0]
theorem leaves1 (c : Dev nD) (t : Fin cfg0.N) : (dat V c).leavesExact 1 t = owns (c : Thread nD τ) (st0_1 t) fullShare (tile V c 1 t) := by
  unfold Dat.leavesExact; rw [show cfg0.idle 1 (cfg0.grid.coords t) = false from rfl, dat_after1]
theorem leaves2 (c : Dev nD) (t : Fin cfg0.N) : (dat V c).leavesExact 2 t = owns (c : Thread nD τ) (st0_2 t) fullShare (tile V c 2 t) := by
  unfold Dat.leavesExact; rw [show cfg0.idle 2 (cfg0.grid.coords t) = false from rfl, dat_after2]
/-- The result window: handed back as found at every tile but the last, filled at the last. -/
theorem leaves3_idle (c : Dev nD) (t : Fin cfg0.N) (h : ¬isLast (grid0.coords t)) :
    (dat V c).leavesExact 3 t = iprop(∃ d, owns (c : Thread nD τ) (st0_3 t) fullShare ((dat V c).before 3 t d)) :=
  Dat.leavesExact_idle (dat V c) 3 t (result_idle t h) (result_kept t h)
theorem leaves3_last (c : Dev nD) (t : Fin cfg0.N) (h : isLast (grid0.coords t)) :
    (dat V c).leavesExact 3 t = owns (c : Thread nD τ) (st0_3 t) fullShare (outAt V c t) := by
  unfold Dat.leavesExact; rw [result_live t h, dat_after3]

set_option maxHeartbeats 4000000 in
theorem body_at (c : Dev nD) (t : Fin cfg0.N) :
    handed V c t ⊢ wp frame (wpE (defs₀ (F := F)) Variants.none c none) Set.univ (bodyAt0 t) (fun _ => returned V c t) := by
  unfold handed returned bodyAt0
  simp only [before0, before1, before2]
  rw [show (dat V c).owesAt () t.succ = (dat V c).owesAt () t.castSucc from rfl, leaves0, leaves1, leaves2]
  have hN : t.val < 32 := lt_of_lt_of_eq t.isLt (show cfg0.N = 32 from N_0)
  obtain ⟨n, hn⟩ := t
  rcases n with _ | n
  · -- tile 0
    have hfst : isFirst (grid0.coords ⟨0, hn⟩) := (isFirst_iff ⟨0, hn⟩).mpr rfl
    have hlst : ¬isLast (grid0.coords ⟨0, hn⟩) := fun h => by have := (isLast_iff ⟨0, hn⟩).mp h; simp at this
    rw [leaves3_idle V c _ hlst]
    rw [show (dat V c).Φ (Fin.castSucc ⟨0, hn⟩) = Pipeline.ΦA spec0 c from rfl,
      show (dat V c).Φ (Fin.succ ⟨0, hn⟩) = between V c 1 hn from rfl, between_succ, accAt_zero, degAt_zero]
    iintro ⟨HΦ, Ho, ⟨%d0, H0⟩, ⟨%d1, H1⟩, ⟨%d2, H2⟩, ⟨%d3, H3⟩⟩
    ihave HΦ' := (start_open (F := F) c) $$ HΦ
    icases HΦ' with ⟨Ha, Hd, Hl, Hp⟩
    iapply (first_tile c Set.univ _ _ _ _ _ _ _ _ _ _ _ _ _ (tile V c 0 ⟨0, hn⟩) (tile V c 1 ⟨0, hn⟩) (tile V c 2 ⟨0, hn⟩) hfst hlst _ _)
    isplitl [H0]; · iexact H0
    isplitl [H1]; · iexact H1
    isplitl [H2]; · iexact H2
    isplitl [H3]; · iexact H3
    isplitl [Ha]; · iexact Ha
    isplitl [Hd]; · iexact Hd
    iintro ⟨H0, H1, H2, H3, Ha, Hd⟩
    isplitl [Ha Hd Hl Hp]
    · isplitl [Ha]; · iexact Ha
      isplitl [Hd]; · iexact Hd
      isplitl [Hl]; · iexact Hl
      iexact Hp
    isplitl [Ho]; · iexact Ho
    isplitl [H0]; · iexact H0
    isplitl [H1]; · iexact H1
    isplitl [H2]; · iexact H2
    iexists _; iexact H3
  · have hfst : ¬isFirst (grid0.coords ⟨n + 1, hn⟩) := fun h => by have := (isFirst_iff ⟨n + 1, hn⟩).mp h; simp at this
    rw [show (dat V c).Φ (Fin.castSucc ⟨n + 1, hn⟩) = between V c (n + 1) (Nat.le_of_lt hn) from rfl,
      show (dat V c).Φ (Fin.succ ⟨n + 1, hn⟩) = between V c (n + 2) hn from rfl, between_succ, between_succ, accAt_succ, degAt_succ]
    by_cases hl : n + 1 = 31
    · -- tile 31
      have hlst : isLast (grid0.coords ⟨n + 1, hn⟩) := (isLast_iff ⟨n + 1, hn⟩).mpr hl
      rw [leaves3_last V c _ hlst]
      unfold outAt; rw [accAt_succ, degAt_succ]
      iintro ⟨⟨Ha, Hd, Hl, Hp⟩, Ho, ⟨%d0, H0⟩, ⟨%d1, H1⟩, ⟨%d2, H2⟩, ⟨%d3, H3⟩⟩
      iapply (last_tile c Set.univ _ _ _ _ _ _ _ _ _ _ _ _ _ (tile V c 0 ⟨n + 1, hn⟩) (tile V c 1 ⟨n + 1, hn⟩) (tile V c 2 ⟨n + 1, hn⟩) hfst hlst _ _ _)
      isplitl [H0]; · iexact H0
      isplitl [H1]; · iexact H1
      isplitl [H2]; · iexact H2
      isplitl [H3]; · iexists _; iexact H3
      isplitl [Ha]; · iexact Ha
      isplitl [Hd]; · iexact Hd
      iintro ⟨H0, H1, H2, H3, Ha, Hd⟩
      isplitl [Ha Hd Hl Hp]
      · isplitl [Ha]; · iexact Ha
        isplitl [Hd]; · iexact Hd
        isplitl [Hl]; · iexact Hl
        iexact Hp
      isplitl [Ho]; · iexact Ho
      isplitl [H0]; · iexact H0
      isplitl [H1]; · iexact H1
      isplitl [H2]; · iexact H2
      iexact H3
    · -- tiles 1 to 30
      have hlst : ¬isLast (grid0.coords ⟨n + 1, hn⟩) := fun h => hl ((isLast_iff ⟨n + 1, hn⟩).mp h)
      rw [leaves3_idle V c _ hlst]
      iintro ⟨⟨Ha, Hd, Hl, Hp⟩, Ho, ⟨%d0, H0⟩, ⟨%d1, H1⟩, ⟨%d2, H2⟩, ⟨%d3, H3⟩⟩
      iapply (middle_tile c Set.univ _ _ _ _ _ _ _ _ _ _ _ _ _ (tile V c 0 ⟨n + 1, hn⟩) (tile V c 1 ⟨n + 1, hn⟩) (tile V c 2 ⟨n + 1, hn⟩) hfst hlst _ _ _ _)
      isplitl [H0]; · iexact H0
      isplitl [H1]; · iexact H1
      isplitl [H2]; · iexact H2
      isplitl [H3]; · iexact H3
      isplitl [Ha]; · iexact Ha
      isplitl [Hd]; · iexact Hd
      iintro ⟨H0, H1, H2, H3, Ha, Hd⟩
      isplitl [Ha Hd Hl Hp]
      · isplitl [Ha]; · iexact Ha
        isplitl [Hd]; · iexact Hd
        isplitl [Hl]; · iexact Hl
        iexact Hp
      isplitl [Ho]; · iexact Ho
      isplitl [H0]; · iexact H0
      isplitl [H1]; · iexact H1
      isplitl [H2]; · iexact H2
      iexists _; iexact H3

/-- The pipeline rule's obligation for the body, at every tile. -/
theorem body_obligation (c : Dev nD) : BodyObligation (dat (F := F) V c) (defs₀ (F := F)) Variants.none () Set.univ := fun t => by
  rw [bigSep_W0, bigSep_W0]
  exact body_at V c t

/-- The region enters with the scratch arrays at anything, -/
theorem enter (c : Dev nD) : (Pipeline.ΦA spec0 c : sProp 𝕄) ⊢ (dat V c).Φ 0 := by
  rw [show (dat V c).Φ 0 = Pipeline.ΦA spec0 c from rfl]

/-- and leaves forgetting what they hold. -/
theorem leave (c : Dev nD) : (dat V c).Φ (Fin.last cfg0.N) ⊢ (Pipeline.ΦA spec0 c : sProp 𝕄) := by
  rw [show (dat V c).Φ (Fin.last cfg0.N) = between V c 32 (by decide) from rfl, between_succ]
  iintro ⟨Ha, Hd, Hl, Hp⟩
  iapply (close_any (F := F) c)
  isplitl [Ha]; · iexists _; iexact Ha
  isplitl [Hd]; · iexists _; iexact Hd
  isplitl [Hl]; · iexact Hl
  iexact Hp

end Cert.Kernel.Edge

end
-- ==== Proof.Bits.NodeRegion.lean ====
/-
  The second launch streams the 16384 rows of H once more in 32 tiles of 512 rows, with the whole edge-message
  array resident, and writes for each tile `(1 / (Σ_e H[row, e] + ε)) · (H_tile · edge)[row, f]` to the matching 512
  rows of the result. Nothing is carried from tile to tile. This module names each window's tile, what the body
  stores, the record the pipeline rule is instantiated with, and proves the body's triple at every grid point.
-/
import proofs.«117672_j79620103733959_1_alg».proof.Proof.Gen.Kernel.Launch
import proofs.«117672_j79620103733959_1_alg».proof.Proof.Gen.Kernel.Skeleton
import proofs.«117672_j79620103733959_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Pipeline.Value
import Idealize.ShloMosaic.Lib.Ring
import Idealize.ShloMosaic.Lib.Tactic
import proofs.«117672_j79620103733959_1_alg».proof.Proof.WholeAccess
set_option maxRecDepth 16384

noncomputable section

namespace Cert.Kernel.Node

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

open Idealize.ShloMosaic.Tactic

/-! ## Tiles -/

/-- Window `w`'s tile at grid point `t`, read off the array the region was entered with. -/
def tile (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The 512 rows of `H` at tile `t`, and the whole edge-message array. -/
abbrev hT (c : Dev nD) (t : Fin cfg1.N) : Vec F S512x4096 .f32 := tile V c 0 t
abbrev eT (c : Dev nD) (t : Fin cfg1.N) : Vec F S4096x128 .f32 := tile V c 1 t

/-- What tile `t` stores: its rows of `H` times the edge messages, each row scaled by the reciprocal of its degree. -/
def outAt (c : Dev nD) (t : Fin cfg1.N) : Vec F S512x128 .f32 := k1_pay1 (hT V c t) (eT V c t)

/-! ## The record for the pipeline rule -/

def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => outAt V c t
  Φ _ := Pipeline.ΦA spec1 c
  q _ := fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = outAt V c t := by dsimp only [dat]

/-- An input window's staging buffer holds its tile when the body runs, fetched there or kept from the point before. -/
theorem before0 (c : Dev nD) (t : Fin cfg1.N) (d) : (dat V c).before 0 t d = tile V c 0 t :=
  ((dat V c).before_in_eq_fetched 0 rfl (fun _ => rfl) (fun _ _ _ => rfl)
      (fun t => by rw [dat_after0]; unfold Dat.blockOf tile; rw [dat_A]; try rfl) t d).trans
    (by unfold Dat.fetched Dat.blockOf tile; rw [dat_A]; try rfl)
theorem before1 (c : Dev nD) (t : Fin cfg1.N) (d) : (dat V c).before 1 t d = tile V c 1 t :=
  ((dat V c).before_in_eq_fetched 1 rfl (fun _ => rfl) (fun _ _ _ => rfl)
      (fun t => by rw [dat_after1]; unfold Dat.blockOf tile; rw [dat_A]; try rfl) t d).trans
    (by unfold Dat.fetched Dat.blockOf tile; rw [dat_A]; try rfl)

/-! ## The body -/

/-- The whole-buffer rectangle the body's one store goes through. -/
abbrev whole512x128 : Rect S512x128 := Rect.unit (s := S512x128) ![0, 0] S512x128.size inb_S512x128_S512x128_0_0

set_option maxHeartbeats 1000000 in
/-- On any whole staging buffers holding a tile `h` of `H` and the edge messages `e`, the body leaves both as they were and
    the result buffer at `k1_pay1 h e`. -/
theorem body_triple (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S512x128 .f32) (harg3 : arg3.IsWhole)
    (h : Vec F S512x4096 .f32) (e : Vec F S4096x128 .f32) (K : PUnit → sProp 𝕄) :
    iprop(owns (c : Thread nD τ) arg1 fullShare h ∗ owns (c : Thread nD τ) arg2 fullShare e ∗ (∃ d, owns (c : Thread nD τ) arg3 fullShare d)
        ∗ (iprop(owns (c : Thread nD τ) arg1 fullShare h ∗ owns (c : Thread nD τ) arg2 fullShare e
            ∗ owns (c : Thread nD τ) arg3 fullShare (k1_pay1 h e)) -∗ K ⟨⟩))
      ⊢ wp frame (wpE (defs₀ (F := F)) Variants.none c none) E (cc1__node_msg_kernel i arg1 harg1 arg2 harg2 arg3 harg3) K := by
  simp only [cc1__node_msg_kernel_eq_skeleton]; unfold cc1__node_msg_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [Cert.WholeAccess.read_last_store _ _ Cert.WholeAccess.zeros2, Cert.WholeAccess.load_whole _ _ Cert.WholeAccess.zeros2,
    Cert.WholeAccess.load_whole _ _ Cert.WholeAccess.zeros2]

/-! ## The body at a grid point -/

/-- What the body is handed at tile `t`: the region's invariant, what the core owes, and each window's current buffer. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At every tile the two input buffers hold their tiles, so the triple applies; the invariant and the dues pass through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before0, before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation for the body, at every tile. -/
theorem body_obligation (c : Dev nD) : BodyObligation (dat (F := F) V c) (defs₀ (F := F)) Variants.none () Set.univ := fun t => by
  rw [bigSep_W1, bigSep_W1]
  exact body_at V c t

end Cert.Kernel.Node

end
-- ==== Proof.Bits.TwoLaunches.lean ====
/-
  The program is two launches in a row: the first leaves the edge messages in `main_v0`, the second reads
  `main_v0` and `H` and leaves the node messages in `main_v1`. This module follows the machine's buffers through
  both: at launch they hold the memory's contents; after the first launch `main_v0` holds what its pipeline wrote
  back and nothing else has changed; after the second the same for `main_v1`. Each launch is a region of the
  several-regions rule, entered from "every unscoped buffer at the contents so far, the generator register at
  some state, nothing owed" and left at the same with the contents advanced. The conclusion: every execution
  terminates and every final memory holds, in each unscoped buffer, the last of those contents; from it the three
  argument arrays are unchanged and `main_v1` is what the second pipeline wrote back.
-/
import proofs.«117672_j79620103733959_1_alg».proof.Proof.Bits.EdgeRegion
import proofs.«117672_j79620103733959_1_alg».proof.Proof.Bits.NodeRegion
import Idealize.ShloMosaic.Lib.Pipeline.RegionsLoop
import Idealize.ShloMosaic.Lib.Pipeline.FrameSuffix

set_option maxRecDepth 16384

noncomputable section

namespace Cert.Kernel.TwoLaunches

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at launch, between the launches, and at the end -/

/-- Core `c`'s buffers at launch. -/
abbrev B0 : Dev nD → Valuation τ sig (Elt F) := fun c b => m (c, b)
abbrev V0 : (c : Dev nD) → (b : Ref sig .tc) → Buf (Elt F) ((c : Thread nD τ).loc b) := fun c b => B0 m c b

/-- After the first launch: its arrays at what its pipeline leaves, every other buffer as before. -/
def B1 (c : Dev nD) : Valuation τ sig (Elt F) :=
  Pipeline.withArrays spec0 c (B0 m c) fun w => (Edge.dat (V0 m) c).arrAt w cfg0.N
abbrev V1 : (c : Dev nD) → (b : Ref sig .tc) → Buf (Elt F) ((c : Thread nD τ).loc b) := fun c b => B1 m c b

theorem B1_arr (c : Dev nD) (w : Fin cfg0.W) :
    B1 m c (Proc.devRef .tc (Pipeline.arrRef spec0 w)) = (Edge.dat (V0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb

/-- After the second launch. -/
def B2 (c : Dev nD) : Valuation τ sig (Elt F) :=
  Pipeline.withArrays spec1 c (B1 m c) fun w => (Node.dat (V1 m) c).arrAt w cfg1.N
abbrev V2 : (c : Dev nD) → (b : Ref sig .tc) → Buf (Elt F) ((c : Thread nD τ).loc b) := fun c b => B2 m c b

theorem B2_arr (c : Dev nD) (w : Fin cfg1.W) :
    B2 m c (Proc.devRef .tc (Pipeline.arrRef spec1 w)) = (Node.dat (V1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb

/-! ### What the second launch is entered with -/

/-- `H` is still the launch's. -/
theorem V1_H (c : Dev nD) : V1 m c main_arg1 = m ((c : Thread nD τ).loc main_arg1) :=
  (B1_arr m c 1).trans (((Edge.dat (V0 m) c).arrAt_in 1 rfl _).trans (Edge.dat_A (V0 m) c 1))
/-- `main_v0` holds what the first pipeline wrote back. -/
theorem V1_edge (c : Dev nD) : V1 m c main_v0 = (Edge.dat (V0 m) c).arrAt 3 cfg0.N := B1_arr m c 3

/-! ### What the end holds -/

theorem B2_x (c : Dev nD) : B2 m c (Proc.devRef .tc main_arg0) = m ((c : Thread nD τ).loc main_arg0) :=
  (B2_other m c main_arg0 (by decide)).trans
    ((B1_arr m c 0).trans (((Edge.dat (V0 m) c).arrAt_in 0 rfl _).trans (Edge.dat_A (V0 m) c 0)))
theorem B2_H (c : Dev nD) : B2 m c (Proc.devRef .tc main_arg1) = m ((c : Thread nD τ).loc main_arg1) :=
  (B2_arr m c 0).trans (((Node.dat (V1 m) c).arrAt_in 0 rfl _).trans ((Node.dat_A (V1 m) c 0).trans (V1_H m c)))
theorem B2_W (c : Dev nD) : B2 m c (Proc.devRef .tc main_arg2) = m ((c : Thread nD τ).loc main_arg2) :=
  (B2_other m c main_arg2 (by decide)).trans
    ((B1_arr m c 2).trans (((Edge.dat (V0 m) c).arrAt_in 2 rfl _).trans (Edge.dat_A (V0 m) c 2)))
theorem B2_node (c : Dev nD) : B2 m c (Proc.devRef .tc main_v1) = (Node.dat (V1 m) c).arrAt 2 cfg1.N := B2_arr m c 2

/-! ## The two regions -/

/-- No pipeline has a prefetched table. -/
abbrev adm : (p : Fin 2) → (pcfgs (F := F) p).Adm := fun p => (cfgs p).toPCfg_adm

/-- Each pipeline's record, at the contents its launch is entered with. -/
def pdats : (p : Fin 2) → (c : Dev nD) → Dat τ (Elt F) Unit ℕ (UR sig nD τ) ℕ (Pipeline.pin (pcfgs (F := F)) adm p) c
  | ⟨0, _⟩ => fun c => Edge.dat (V0 m) c
  | ⟨1, _⟩ => fun c => Node.dat (V1 m) c

abbrev 𝒱₀ : Variants := Variants.none
/-- No core owes another anything. -/
abbrev L : GSem nD τ sig → Finset Unit := fun _ => ∅
abbrev lv : GSem nD τ sig → Unit → ℕ := fun _ _ => 0

/-- What rides beside the buffers: the generator register at some state, and nothing owed. -/
abbrev aside (c : Dev nD) : sProp 𝕄 := iprop((∃ r, prngReg c r) ∗ ∃ W, owes (c : Thread nD τ) (0 : CellTallies nD τ sig Unit) W)

/-- The thread state at contents `B`. -/
abbrev at_ (B : Dev nD → Valuation τ sig (Elt F)) (c : Dev nD) : sProp 𝕄 :=
  iprop(StableHlo.held (c : Thread nD τ) (Pipeline.ucRefs τ sig) (B c) ∗ aside c)

theorem edge_exit (c : Dev nD) (w : Fin cfg0.W) : (Edge.dat (V0 m) c).arrAt w cfg0.N = V1 m c (Pipeline.arrRef spec0 w) :=
  (B1_arr m c w).symm
theorem edge_rest (c : Dev nD) : ∀ b, b ∉ Finset.univ.image (Pipeline.arrRef spec0) → V1 m c b = V0 m c b :=
  fun b hb => B1_other m c b fun w e => hb (Finset.mem_image.mpr ⟨w, Finset.mem_univ _, e⟩)
theorem node_exit (c : Dev nD) (w : Fin cfg1.W) : (Node.dat (V1 m) c).arrAt w cfg1.N = V2 m c (Pipeline.arrRef spec1 w) :=
  (B2_arr m c w).symm
theorem node_rest (c : Dev nD) : ∀ b, b ∉ Finset.univ.image (Pipeline.arrRef spec1) → V2 m c b = V1 m c b :=
  fun b hb => B2_other m c b fun w e => hb (Finset.mem_image.mpr ⟨w, Finset.mem_univ _, e⟩)

set_option backward.isDefEq.respectTransparency.types false in
/-- The first launch as a region: entered at `B0`, left at `B1`. Its arrays are split off the unscoped buffers at entry and
    put back at exit; the generator register goes into the region's invariant and comes back; the scratch arrays enter
    at anything and leave forgotten. -/
def edgeRegion : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V0 m) c).loose
  hwaits := Pipeline.hwaits_of_owed_zero _ _ _ _ L lv 0 fun _ _ => rfl
  pre := at_ (B0 m)
  post := at_ (B1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hbufs, Hg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hg]; · iexact Hg
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hg, -, Hsc⟩
      isplitl [Hsc]; · iexact Hsc
      iexact Hg
    exact h.trans (Edge.enter (V0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hsc, Hg⟩
      isplitl [Hg]; · iexact Hg
      isplitr; · iempintro
      iexact Hsc
    exact (Edge.leave (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (edge_exit m c) (edge_rest m c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%W, -, Howe⟩; iexists W; iexact Howe

set_option backward.isDefEq.respectTransparency.types false in
/-- The second launch as a region: entered at `B1`, left at `B2`; it keeps nothing between tiles. -/
def nodeRegion : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V1 m) c).loose
  hwaits := Pipeline.hwaits_of_owed_zero _ _ _ _ L lv 1 fun _ _ => rfl
  pre := at_ (B1 m)
  post := at_ (B2 m)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hbufs, Hg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hg]; · iexact Hg
    iexact Hrest
  hin c := by
    rw [show (pdats m 1 c).Φ 0 = Pipeline.ΦA spec1 c from rfl]; unfold Pipeline.ΦA
    iintro ⟨Hg, -, Hsc⟩
    isplitl [Hsc]; · iexact Hsc
    iexact Hg
  hout c := by
    rw [Pipeline.ownSems0_none, show (pdats m 1 c).Φ (Fin.last _) = Pipeline.ΦA spec1 c from rfl]; unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (node_exit m c) (node_rest m c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%W, -, Howe⟩; iexists W; iexact Howe

/-! ## The run -/

/-- @main's two items. -/
abbrev segs : List (Pipeline.Seg (pcfgs (F := F)) adm (pdats m) () defs₀ 𝒱₀ L lv) :=
  [ .region (edgeRegion m), .region (nodeRegion m) ]

theorem main_is_segs (c : Dev nD) : main (F := F) c = Pipeline.Seg.run (segs m) :=
  main_segs adm (pdats m) () 𝒱₀ L lv (edgeRegion m) (nodeRegion m) c

/-- An unscoped buffer of the TensorCore is among those the thread state holds. -/
theorem held_of_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates without a fault, and the final
    memory holds in every unscoped buffer the contents `B2`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = B2 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (B0 m))
    (Tₙ := fun c => iprop(StableHlo.held (c : Thread nD τ) (Pipeline.ucRefs τ sig) (B2 m c) ∗ ∃ r, prngReg c r))
    (hch := ⟨fun _ => .rfl, fun _ => .rfl, fun c => by
      show (at_ (B2 m) c : sProp 𝕄) ⊢ _
      iintro ⟨Hh, Hg, Ho⟩
      isplitl [Hh Hg]
      · isplitl [Hh]; · iexact Hh
        iexact Hg
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c => h c)

end Cert.Kernel.TwoLaunches

end
-- ==== Proof.Spec.lean ====
/-
  The mathematics both programs compute, over the extended reals. With `x : 16384 × 128`, `H : 16384 × 4096`
  (rows are nodes, columns are hyperedges) and `W : 128 × 128`:

    proj[n, f]  = Σ_k x[n, k] · W[k, f]
    edge[e, f]  = (1 / (Σ_n H[n, e] + ε)) · Σ_n H[n, e] · proj[n, f]
    node[n, f]  = (1 / (Σ_e H[n, e] + ε)) · Σ_e H[n, e] · edge[e, f]

  where `1` and `ε` are the two float literals both programs spell (never evaluated: the same words on both
  sides), and `1 / ·` is the ideal quotient. The kernel reaches `edge` by adding up 32 tiles of 512 rows; the
  regrouping of a sum over 16384 rows into tiles is the one algebraic law the two sides need, and it holds in any
  commutative monoid.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Hyper

open Idealize.ShloMosaic Idealize.ShloMosaic.ValueIdx

abbrev SX : Shape := ⟨2, ![16384, 128]⟩
abbrev SH : Shape := ⟨2, ![16384, 4096]⟩
abbrev SW : Shape := ⟨2, ![128, 128]⟩
abbrev SE : Shape := ⟨2, ![4096, 128]⟩

/-- The two literals of both programs: `ε` (the float nearest 1e-6) and `1`. -/
abbrev eps : EReal := Ideal.ofBits .f32 0x358637BD#32
abbrev one : EReal := Ideal.ofBits .f32 0x3F800000#32

/-- `x W` at a row and a feature. -/
def proj (x : SX.Idx → EReal) (W : SW.Idx → EReal) (n : Fin 16384) (f : Fin 128) : EReal :=
  ∑ k : Fin 128, x (ix2 n k) * W (ix2 k f)

/-- A hyperedge's degree: its column sum of `H`. -/
def edgeDeg (H : SH.Idx → EReal) (e : Fin 4096) : EReal := ∑ n : Fin 16384, H (ix2 n e)

/-- A node's degree: its row sum of `H`. -/
def nodeDeg (H : SH.Idx → EReal) (n : Fin 16384) : EReal := ∑ e : Fin 4096, H (ix2 n e)

/-- The unscaled gather onto hyperedges, `(Hᵀ (x W))[e, f]`. -/
def gather (x : SX.Idx → EReal) (H : SH.Idx → EReal) (W : SW.Idx → EReal) (e : Fin 4096) (f : Fin 128) : EReal :=
  ∑ n : Fin 16384, H (ix2 n e) * proj x W n f

/-- The edge messages. -/
def edge (x : SX.Idx → EReal) (H : SH.Idx → EReal) (W : SW.Idx → EReal) (e : Fin 4096) (f : Fin 128) : EReal :=
  Ideal.div one (edgeDeg H e + eps) * gather x H W e f

/-- The edge messages as an array. -/
def edgeArr (x : SX.Idx → EReal) (H : SH.Idx → EReal) (W : SW.Idx → EReal) : SE.Idx → EReal :=
  fun j => edge x H W (j 0) (j 1)

/-- The node messages from any edge-message array. -/
def node (H : SH.Idx → EReal) (E : SE.Idx → EReal) (n : Fin 16384) (f : Fin 128) : EReal :=
  Ideal.div one (nodeDeg H n + eps) * ∑ e : Fin 4096, H (ix2 n e) * E (ix2 e f)

/-- The node messages as an array. -/
def nodeArr (H : SH.Idx → EReal) (E : SE.Idx → EReal) : SX.Idx → EReal :=
  fun j => node H E (j 0) (j 1)

/-- The whole computation. -/
def result (x : SX.Idx → EReal) (H : SH.Idx → EReal) (W : SW.Idx → EReal) : SX.Idx → EReal :=
  nodeArr H (edgeArr x H W)

theorem edgeArr_apply (x : SX.Idx → EReal) (H : SH.Idx → EReal) (W : SW.Idx → EReal) (e : Fin 4096) (f : Fin 128) :
    edgeArr x H W (ix2 e f) = edge x H W e f := rfl
theorem nodeArr_apply (H : SH.Idx → EReal) (E : SE.Idx → EReal) (n : Fin 16384) (f : Fin 128) :
    nodeArr H E (ix2 n f) = node H E n f := rfl

/-! ## Tiles -/

/-- Row `r` of tile `t`: row `512 t + r` of the array. -/
def row (t : Fin 32) (r : Fin 512) : Fin 16384 := ⟨512 * t.val + r.val, by omega⟩

/-- A sum over the 16384 rows is the sum over the 32 tiles of the sums over each tile's 512 rows. -/
theorem sum_rows_eq_sum_tiles {M : Type} [AddCommMonoid M] (g : Fin 16384 → M) :
    ∑ n : Fin 16384, g n = ∑ t : Fin 32, ∑ r : Fin 512, g (row t r) := by
  rw [← Fintype.sum_prod_type']
  exact (Fintype.sum_equiv (finProdFinEquiv (m := 32) (n := 512)) (fun p => g (row p.1 p.2)) g
    (fun p => congrArg g (Fin.ext (by simp [row, finProdFinEquiv]; omega)))).symm

end Cert.Hyper

end
-- ==== Proof.EdgeValue.lean ====
/-
  The first launch's result array, over the extended reals, is the edge-message array of the specification.

  Each payload of the launch is read at an index: a tile's share `Hᵀ (x W)` is a sum over the tile's 512 rows of
  `H[row, e]` times the row's projection, its column sums of `H` a sum over the same rows, and the last tile scales
  row `e` of the accumulator by one over (degree plus ε). Each tile is 512 consecutive rows of its array. So after tile
  `n` the two running sums hold the first `n + 1` tiles' terms, after the last tile all 32, and regrouping the
  specification's sums over 16384 rows into 32 tiles of 512 gives the same products and the same quotient. The last
  point alone writes the result back, through a block that is the whole array.
-/
import proofs.«117672_j79620103733959_1_alg».proof.Proof.EdgeData
import proofs.«117672_j79620103733959_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx
open Idealize.ShloMosaic.Pipeline (Dat)

/-! ## The payloads at an index -/

/-- The zero splat of the accumulator is the extended real zero everywhere. -/
theorem pay1_apply (j : S4096x128.Idx) : (k0_pay1 (F := Ideal)) j = 0 := by
  unfold k0_pay1
  rw [shapeCast_self]
  exact Ideal.ofBits_zero_f32

/-- The zero splat of the degree row is the extended real zero everywhere. -/
theorem pay2_apply (j : S1x4096.Idx) : (k0_pay2 (F := Ideal)) j = 0 := by
  unfold k0_pay2
  rw [shapeCast_self]
  exact Ideal.ofBits_zero_f32

/-- One tile's column sums of `H` added onto the degree row. -/
theorem pay4_apply (h : Vec Ideal S512x4096 .f32) (d : Vec Ideal S1x4096 .f32) (e : Fin 4096) :
    k0_pay4 h d (ix2 (0 : Fin 1) e) = d (ix2 (0 : Fin 1) e) + ∑ r : Fin 512, h (ix2 r e) := by
  unfold k0_pay4
  rw [shapeCast_self]
  show d (ix2 (0 : Fin 1) e) + _ = _
  refine congrArg (d (ix2 (0 : Fin 1) e) + ·) ?_
  refine (shapeCast_a_1a_apply _ shapeCasts_S4096_S1x4096 (0 : Fin 1) e).trans ?_
  refine (Ideal.multiReduction_add_single h 0x00000000#32 reduces_S512x4096_S4096 (.inl rfl) rfl (ix1 e)).trans ?_
  show ∑ r : Fin 512, h (reduces_S512x4096_S4096.lift (ix1 e) r) = _
  refine Finset.sum_congr rfl fun r _ => congrArg h (funext fun a => Fin.ext ?_)
  match a with
  | ⟨0, _⟩ => rfl
  | ⟨1, _⟩ => rfl

/-- The last tile's scaling: each row of the accumulator times one over (its degree plus ε). -/
theorem pay5_apply (d : Vec Ideal S1x4096 .f32) (a : Vec Ideal S4096x128 .f32) (e : Fin 4096) (f : Fin 128) :
    k0_pay5 d a (ix2 e f) = Ideal.div Cert.Hyper.one (d (ix2 (0 : Fin 1) e) + Cert.Hyper.eps) * a (ix2 e f) := by
  unfold k0_pay5
  show _ * a (ix2 e f) = _
  refine congrArg (· * a (ix2 e f)) ?_
  refine (broadcastTo_apply _ broadcasts_S4096x1_S4096x128 (ix2 e f) (ix2 e (0 : Fin 1)) fun ax => ?_).trans ?_
  · match ax with
    | ⟨0, _⟩ => show e.val = if (4096 : Nat) = 1 then 0 else e.val; rw [if_neg (by decide)]
    | ⟨1, _⟩ => show 0 = if (1 : Nat) = 1 then 0 else f.val; rw [if_pos rfl]
  refine (transpose_ix2_apply _ transposes_S1x4096_p1_0_S4096x1 e (0 : Fin 1)).trans ?_
  rfl

/-! ### The two products -/

theorem lhs_xw_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_xw_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_xw_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_xw_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- A tile of `x` times `W`, into the zero splat, at a row and a feature. -/
theorem xw_apply (x : FVec Ideal S512x128 .bf16) (w : FVec Ideal S128x128 .bf16) (r : Fin 512) (f : Fin 128) :
    matmul dot_S512x128_S128x128_S512x128_1_0_0_1_n_n none x w (constant (F := Ideal) S512x128 .f32 0x00000000#32) (ix2 r f)
      = ∑ k : Fin 128, x (ix2 r k) * w (ix2 k f) := by
  simp only [matmul]
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 r f) ((ValueIdx.contrEquiv1 dot_S512x128_S128x128_S512x128_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S512x128_S128x128_S512x128_1_0_0_1_n_n.rhsIdx (ix2 r f) ((ValueIdx.contrEquiv1 dot_S512x128_S128x128_S512x128_1_0_0_1_n_n 128 rfl rfl).symm k) = ix2 k f := funext fun a => Fin.ext (by
    match a with
    | ⟨0, _⟩ => exact (rhs_xw_0 _ _).trans hk
    | ⟨1, _⟩ => exact rhs_xw_1 _ _)
  rw [el, er]

theorem lhs_hp_0 (i : S4096x128.Idx) (q : dot_S512x4096_S512x128_S4096x128_0_0_1_1_n_n.contr.Idx) :
    (dot_S512x4096_S512x128_S4096x128_0_0_1_1_n_n.lhsIdx i q 0).val = (q ⟨0, by decide⟩).val :=
  dot_S512x4096_S512x128_S4096x128_0_0_1_1_n_n.lhsIdx_val_of_single rfl i q
theorem lhs_hp_1 (i : S4096x128.Idx) (q : dot_S512x4096_S512x128_S4096x128_0_0_1_1_n_n.contr.Idx) :
    (dot_S512x4096_S512x128_S4096x128_0_0_1_1_n_n.lhsIdx i q 1).val = (i 0).val := by
  unfold DotDims.lhsIdx
  rw [dif_neg (show ¬(1 : Fin S512x4096.rank) ∈ dot_S512x4096_S512x128_S4096x128_0_0_1_1_n_n.lhsBatch by decide), dif_pos (show (1 : Fin S512x4096.rank) ∈ dot_S512x4096_S512x128_S4096x128_0_0_1_1_n_n.lhsNonContracting by decide)]
  rfl
theorem rhs_hp_0 (i : S4096x128.Idx) (q : dot_S512x4096_S512x128_S4096x128_0_0_1_1_n_n.contr.Idx) :
    (dot_S512x4096_S512x128_S4096x128_0_0_1_1_n_n.rhsIdx i q 0).val = (q ⟨0, by decide⟩).val :=
  dot_S512x4096_S512x128_S4096x128_0_0_1_1_n_n.rhsIdx_val_of_single rfl i q
theorem rhs_hp_1 (i : S4096x128.Idx) (q : dot_S512x4096_S512x128_S4096x128_0_0_1_1_n_n.contr.Idx) :
    (dot_S512x4096_S512x128_S4096x128_0_0_1_1_n_n.rhsIdx i q 1).val = (i 1).val := by
  unfold DotDims.rhsIdx
  rw [dif_neg (show ¬(1 : Fin S512x128.rank) ∈ dot_S512x4096_S512x128_S4096x128_0_0_1_1_n_n.rhsBatch by decide), dif_pos (show (1 : Fin S512x128.rank) ∈ dot_S512x4096_S512x128_S4096x128_0_0_1_1_n_n.rhsNonContracting by decide)]
  rfl

/-- A tile of `H`, transposed, times a tile of projections, into the zero splat, at an edge and a feature:
    the contraction runs over the tile's rows. -/
theorem hp_apply (h : FVec Ideal S512x4096 .bf16) (p : FVec Ideal S512x128 .bf16) (e : Fin 4096) (f : Fin 128) :
    matmul dot_S512x4096_S512x128_S4096x128_0_0_1_1_n_n none h p (constant (F := Ideal) S4096x128 .f32 0x00000000#32) (ix2 e f)
      = ∑ r : Fin 512, h (ix2 r e) * p (ix2 r f) := by
  simp only [matmul]
  rw [Ideal.matmul_constant_zero_apply, ← Equiv.sum_comp (ValueIdx.contrEquiv1 dot_S512x4096_S512x128_S4096x128_0_0_1_1_n_n 512 rfl rfl).symm]
  refine Finset.sum_congr rfl fun k _ => ?_
  have hk := ValueIdx.contrEquiv1_symm_val dot_S512x4096_S512x128_S4096x128_0_0_1_1_n_n 512 rfl rfl k
  have el : dot_S512x4096_S512x128_S4096x128_0_0_1_1_n_n.lhsIdx (ix2 e f) ((ValueIdx.contrEquiv1 dot_S512x4096_S512x128_S4096x128_0_0_1_1_n_n 512 rfl rfl).symm k) = ix2 k e := funext fun a => Fin.ext (by
    match a with
    | ⟨0, _⟩ => exact (lhs_hp_0 _ _).trans hk
    | ⟨1, _⟩ => exact lhs_hp_1 _ _)
  have er : dot_S512x4096_S512x128_S4096x128_0_0_1_1_n_n.rhsIdx (ix2 e f) ((ValueIdx.contrEquiv1 dot_S512x4096_S512x128_S4096x128_0_0_1_1_n_n 512 rfl rfl).symm k) = ix2 k f := funext fun a => Fin.ext (by
    match a with
    | ⟨0, _⟩ => exact (rhs_hp_0 _ _).trans hk
    | ⟨1, _⟩ => exact rhs_hp_1 _ _)
  rw [el, er]

/-- One tile's share `Hᵀ (x W)` added onto the accumulator. -/
theorem pay3_apply (x : Vec Ideal S512x128 .f32) (h : Vec Ideal S512x4096 .f32) (w : Vec Ideal S128x128 .f32)
    (a : Vec Ideal S4096x128 .f32) (e : Fin 4096) (f : Fin 128) :
    k0_pay3 x h w a (ix2 e f) = a (ix2 e f) + ∑ r : Fin 512, h (ix2 r e) * ∑ k : Fin 128, x (ix2 r k) * w (ix2 k f) := by
  unfold k0_pay3
  rw [shapeCast_self]
  show a (ix2 e f) + _ = _
  refine congrArg (a (ix2 e f) + ·) ?_
  refine (hp_apply _ _ e f).trans ?_
  refine Finset.sum_congr rfl fun r _ => ?_
  show h (ix2 r e) * _ = _
  refine congrArg (h (ix2 r e) * ·) ?_
  exact xw_apply _ _ r f

/-! ## The tiles, read off the arrays -/

-- the buffer contents the region is entered with, per core, at the ideal instance
variable (V : (c : Dev nD) → (b : Ref sig .tc) → Buf (Elt Ideal) ((c : Thread nD τ).loc b))

/-- A grid point as a tile number. -/
def tileOf (t : Fin cfg0.N) : Fin 32 := ⟨t.val, t.isLt.trans_eq N_0⟩

theorem tileOf_val (t : Fin cfg0.N) : (tileOf t).val = t.val := rfl

/-- The block indices of the four windows at a grid point: the row tiles of `x` and `H` move with the point, `W` and the result stay. -/
theorem index_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_h : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_o : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row `r` of the tile of `x` at point `t` is row `512 t + r` of `x`. -/
theorem xT_apply (c : Dev nD) (t : Fin cfg0.N) (r : Fin 512) (k : Fin 128) :
    Edge.xT V c t (ix2 r k) = V c main_arg0 (ix2 (Cert.Hyper.row (tileOf t) r) k) := by
  show Edge.tile V c 0 t (ix2 r k) = _
  unfold Edge.tile
  rw [View.read_apply]
  show V c main_arg0 _ = V c main_arg0 _
  refine congrArg (V c main_arg0) (funext fun a => Fin.ext ?_)
  match a with
  | ⟨0, _⟩ => show win0_0.index t (0 : Fin 2) * 512 + 1 * r.val = 512 * t.val + r.val; rw [(index_x t).1]; omega
  | ⟨1, _⟩ => show win0_0.index t (1 : Fin 2) * 128 + 1 * k.val = k.val; rw [(index_x t).2]; omega

/-- Row `r` of the tile of `H` at point `t` is row `512 t + r` of `H`. -/
theorem hT_apply (c : Dev nD) (t : Fin cfg0.N) (r : Fin 512) (e : Fin 4096) :
    Edge.hT V c t (ix2 r e) = V c main_arg1 (ix2 (Cert.Hyper.row (tileOf t) r) e) := by
  show Edge.tile V c 1 t (ix2 r e) = _
  unfold Edge.tile
  rw [View.read_apply]
  show V c main_arg1 _ = V c main_arg1 _
  refine congrArg (V c main_arg1) (funext fun a => Fin.ext ?_)
  match a with
  | ⟨0, _⟩ => show win0_1.index t (0 : Fin 2) * 512 + 1 * r.val = 512 * t.val + r.val; rw [(index_h t).1]; omega
  | ⟨1, _⟩ => show win0_1.index t (1 : Fin 2) * 4096 + 1 * e.val = e.val; rw [(index_h t).2]; omega

/-- The tile of `W` at every point is `W`. -/
theorem wT_apply (c : Dev nD) (t : Fin cfg0.N) (k : Fin 128) (f : Fin 128) :
    Edge.wT V c t (ix2 k f) = V c main_arg2 (ix2 k f) := by
  show Edge.tile V c 2 t (ix2 k f) = _
  unfold Edge.tile
  rw [View.read_apply]
  show V c main_arg2 _ = V c main_arg2 _
  refine congrArg (V c main_arg2) (funext fun a => Fin.ext ?_)
  match a with
  | ⟨0, _⟩ => show win0_2.index t (0 : Fin 2) * 128 + 1 * k.val = k.val; rw [(index_w t).1]; omega
  | ⟨1, _⟩ => show win0_2.index t (1 : Fin 2) * 128 + 1 * f.val = f.val; rw [(index_w t).2]; omega

/-! ## The running sums in closed form -/

/-- What tile `t` adds to the accumulator at an edge and a feature, and to the degree at an edge. -/
def accTerm (x : Cert.Hyper.SX.Idx → EReal) (H : Cert.Hyper.SH.Idx → EReal) (W : Cert.Hyper.SW.Idx → EReal)
    (e : Fin 4096) (f : Fin 128) (t : Fin 32) : EReal :=
  ∑ r : Fin 512, H (ix2 (Cert.Hyper.row t r) e) * Cert.Hyper.proj x W (Cert.Hyper.row t r) f
def degTerm (H : Cert.Hyper.SH.Idx → EReal) (e : Fin 4096) (t : Fin 32) : EReal :=
  ∑ r : Fin 512, H (ix2 (Cert.Hyper.row t r) e)

/-- The sum of the first `n + 1` of 32 terms. -/
def upTo (g : Fin 32 → EReal) (n : ℕ) : EReal := ∑ t ∈ Finset.range (n + 1), if h : t < 32 then g ⟨t, h⟩ else 0

theorem upTo_zero (g : Fin 32 → EReal) : upTo g 0 = g ⟨0, by decide⟩ := by
  unfold upTo
  rw [Finset.sum_range_one, dif_pos (by decide)]
theorem upTo_succ (g : Fin 32 → EReal) (n : ℕ) (h : n + 1 < 32) : upTo g (n + 1) = upTo g n + g ⟨n + 1, h⟩ := by
  unfold upTo
  rw [Finset.sum_range_succ _ (n + 1), dif_pos h]
theorem upTo_last (g : Fin 32 → EReal) : upTo g 31 = ∑ t : Fin 32, g t := by
  unfold upTo
  show ∑ t ∈ Finset.range 32, _ = _
  rw [Finset.sum_range]
  exact Finset.sum_congr rfl fun t _ => dif_pos t.isLt

/-- One tile's step of the accumulator, in terms of the arrays. -/
theorem acc_step (c : Dev nD) (t : Fin cfg0.N) (a : Vec Ideal S4096x128 .f32) (e : Fin 4096) (f : Fin 128) :
    k0_pay3 (Edge.xT V c t) (Edge.hT V c t) (Edge.wT V c t) a (ix2 e f)
      = a (ix2 e f) + accTerm (V c main_arg0) (V c main_arg1) (V c main_arg2) e f (tileOf t) := by
  refine (pay3_apply (Edge.xT V c t) (Edge.hT V c t) (Edge.wT V c t) a e f).trans ?_
  refine congrArg (a (ix2 e f) + ·) ?_
  unfold accTerm Cert.Hyper.proj
  exact Finset.sum_congr rfl fun r _ => congrArg₂ (· * ·) (hT_apply V c t r e)
    (Finset.sum_congr rfl fun k _ => congrArg₂ (· * ·) (xT_apply V c t r k) (wT_apply V c t k f))

/-- One tile's step of the degree row, in terms of `H`. -/
theorem deg_step (c : Dev nD) (t : Fin cfg0.N) (d : Vec Ideal S1x4096 .f32) (e : Fin 4096) :
    k0_pay4 (Edge.hT V c t) d (ix2 (0 : Fin 1) e) = d (ix2 (0 : Fin 1) e) + degTerm (V c main_arg1) e (tileOf t) := by
  refine (pay4_apply (Edge.hT V c t) d e).trans ?_
  refine congrArg (d (ix2 (0 : Fin 1) e) + ·) ?_
  unfold degTerm
  exact Finset.sum_congr rfl fun r _ => hT_apply V c t r e

/-- The accumulator after tile `n` holds the first `n + 1` tiles' shares. -/
theorem accAt_apply (c : Dev nD) : ∀ (n : ℕ) (h : n < cfg0.N) (e : Fin 4096) (f : Fin 128),
    Edge.accAt V c n h (ix2 e f) = upTo (accTerm (V c main_arg0) (V c main_arg1) (V c main_arg2) e f) n
  | 0, h, e, f => by
    rw [Edge.accAt_zero]
    refine (acc_step V c ⟨0, h⟩ _ e f).trans ?_
    rw [pay1_apply, zero_add, upTo_zero]
    rfl
  | n + 1, h, e, f => by
    rw [Edge.accAt_succ]
    refine (acc_step V c ⟨n + 1, h⟩ _ e f).trans ?_
    rw [accAt_apply c n _ e f, upTo_succ _ n (h.trans_eq N_0)]
    rfl

/-- The degree row after tile `n` holds the first `n + 1` tiles' column sums. -/
theorem degAt_apply (c : Dev nD) : ∀ (n : ℕ) (h : n < cfg0.N) (e : Fin 4096),
    Edge.degAt V c n h (ix2 (0 : Fin 1) e) = upTo (degTerm (V c main_arg1) e) n
  | 0, h, e => by
    rw [Edge.degAt_zero]
    refine (deg_step V c ⟨0, h⟩ _ e).trans ?_
    rw [pay2_apply, zero_add, upTo_zero]
    rfl
  | n + 1, h, e => by
    rw [Edge.degAt_succ]
    refine (deg_step V c ⟨n + 1, h⟩ _ e).trans ?_
    rw [degAt_apply c n _ e, upTo_succ _ n (h.trans_eq N_0)]
    rfl

/-! ## The last tile's output, and the result array -/

/-- The specification's edge message with both of its sums over the 16384 rows regrouped into the 32 tiles. -/
theorem edge_eq_tiles (x : Cert.Hyper.SX.Idx → EReal) (H : Cert.Hyper.SH.Idx → EReal) (W : Cert.Hyper.SW.Idx → EReal)
    (e : Fin 4096) (f : Fin 128) :
    Ideal.div Cert.Hyper.one ((∑ t : Fin 32, degTerm H e t) + Cert.Hyper.eps) * ∑ t : Fin 32, accTerm x H W e f t
      = Cert.Hyper.edge x H W e f := by
  unfold Cert.Hyper.edge Cert.Hyper.edgeDeg Cert.Hyper.gather
  rw [Cert.Hyper.sum_rows_eq_sum_tiles (fun n => H (ix2 n e)),
    Cert.Hyper.sum_rows_eq_sum_tiles (fun n => H (ix2 n e) * Cert.Hyper.proj x W n f)]
  rfl

/-- The last grid point. -/
def lastPt : Fin cfg0.N := ⟨31, by rw [show cfg0.N = 32 from N_0]; decide⟩

/-- What the last tile writes is the specification's edge message. -/
theorem out_last_apply (c : Dev nD) (e : Fin 4096) (f : Fin 128) :
    Edge.outAt V c lastPt (ix2 e f) = Cert.Hyper.edge (V c main_arg0) (V c main_arg1) (V c main_arg2) e f := by
  unfold Edge.outAt
  refine (pay5_apply _ _ e f).trans ?_
  rw [degAt_apply V c lastPt.val lastPt.isLt e, accAt_apply V c lastPt.val lastPt.isLt e f]
  show Ideal.div Cert.Hyper.one (upTo _ 31 + Cert.Hyper.eps) * upTo _ 31 = _
  rw [upTo_last, upTo_last]
  exact edge_eq_tiles (V c main_arg0) (V c main_arg1) (V c main_arg2) e f

/-- At the last point the result window's block starts at the array's origin and has the array's extents. -/
theorem last_block : ∀ a : Fin 2, win0_3.index lastPt a * win0_3.size a = 0
    ∧ win0_3.xsize (grid0.coords lastPt) a = S4096x128.size a := by decide +kernel

theorem last_offsets : (fun a => win0_3.index lastPt a * main_v0.ty.shape.size a) = fun _ => 0 :=
  funext fun a => (last_block a).1

/-- So every index of the result array lies in the block the last point writes back. -/
theorem mem_last_block (i : S4096x128.Idx) : i ∈ ((cfg0.win 3).blk lastPt).view.set := by
  show i ∈ ((View.whole main_v0).slice (win0_3.rect lastPt)).set
  rw [View.set_slice_whole, Rect.mem_set_unit]
  intro a
  show win0_3.index lastPt a * win0_3.size a ≤ (i a : Nat)
    ∧ (i a : Nat) < win0_3.index lastPt a * win0_3.size a + win0_3.xsize (grid0.coords lastPt) a
  rw [(last_block a).1, (last_block a).2, Nat.zero_add]
  exact ⟨Nat.zero_le _, (i a).isLt⟩

/-- The only write-back is the last point's, and it writes the specification's array: the result window's one block is
    the whole array, and what the last tile leaves there is the edge message at every index. -/
theorem flushed_eq (c : Dev nD) (t : Fin cfg0.N) (hf : (cfg0.win 3).flush t = true) :
    (Edge.dat V c).flushed 3 t
      = ((cfg0.win 3).blk t).view.read (Elt Ideal) (Cert.Hyper.edgeArr (V c main_arg0) (V c main_arg1) (V c main_arg2)) := by
  have hN : cfg0.N = 32 := N_0
  have h31 : t.val = 31 := by have := (flush0_3 t).mp hf; have := t.isLt; omega
  obtain rfl : t = lastPt := Fin.ext h31
  show (cfg0.win 3).cut (grid0.coords lastPt) ((Edge.dat V c).after 3 lastPt) = _
  rw [Edge.dat_after3]
  refine Eq.trans ?_ (Memref.read_access_unit_zero (Elt Ideal) main_v0 last_offsets
    (fun a => by rw [congrFun last_offsets a, Nat.zero_add])
    (Cert.Hyper.edgeArr (V c main_arg0) (V c main_arg1) (V c main_arg2))).symm
  funext y
  obtain ⟨e, f, rfl⟩ : ∃ (e : Fin 4096) (f : Fin 128), y = ix2 e f := ⟨y 0, y 1, eq_ix2 y⟩
  exact out_last_apply V c e f

/-- After the first launch the result array holds the specification's edge messages of the three arrays the launch was entered with. -/
theorem edge_final (c : Dev nD) :
    (Edge.dat (F := Ideal) V c).arrAt 3 cfg0.N = Cert.Hyper.edgeArr (V c main_arg0) (V c main_arg1) (V c main_arg2) :=
  (Edge.dat V c).arrAt_eq_of_cover 3 (Cert.Hyper.edgeArr (V c main_arg0) (V c main_arg1) (V c main_arg2)) (flushed_eq V c)
    fun i => ⟨lastPt, (flush0_3 lastPt).mpr rfl, mem_last_block i⟩

end Cert.KernelIdeal.EdgeValue

end
-- ==== Proof.NodeValue.lean ====
/- The second launch's result array, over the extended reals, is the node-message array of the specification.

   Tile `t` of the second launch reads rows `512 t … 512 t + 511` of H and the whole edge-message array, and stores, at row `r`
   and feature `f`, `(1 / (Σ_q H[512 t + r, q] + ε)) · Σ_q H[512 t + r, q] · E[q, f]`: the matrix product read as a sum over the
   4096 hyperedges, the lane sum as the row's degree, the column and its spread over the features as the same entry. That is
   the node message of row `512 t + r`, with the same sums, products and quotient as the specification writes them. Every
   tile's block is written back and the 32 blocks cover the 16384 rows, so the array ends holding the node messages. -/
import proofs.«117672_j79620103733959_1_alg».proof.Proof.NodeRegion
import proofs.«117672_j79620103733959_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.ShloMosaic.ValueIdx
open Idealize.ShloMosaic.Pipeline (Dat)

-- the buffer contents the region is entered with, per core, at the ideal instance
variable (V : (c : Dev nD) → (b : Ref sig .tc) → Buf (Elt Ideal) ((c : Thread nD τ).loc b))

/-! ## The product of a tile of H with the edge messages, at a row and a feature -/

/-- The left operand's index at output `(r, f)` and contraction position `q` is `(r, q)`: its row is the output's row, -/
theorem lhs_axis0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
/-- and its column is the contraction position. -/
theorem lhs_axis1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
/-- The right operand's index there is `(q, f)`: its row is the contraction position, -/
theorem rhs_axis0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
/-- and its column is the output's feature. -/
theorem rhs_axis1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The matrix product into a zero accumulator, at row `r` and feature `f`: the sum over the 4096 hyperedges. -/
theorem product_apply (a : FVec Ideal S512x4096 .bf16) (b : FVec Ideal S4096x128 .bf16) (r : Fin 512) (f : Fin 128) :
    matmul dot_S512x4096_S4096x128_S512x128_1_0_0_1_n_n none a b (constant S512x128 .f32 0x00000000#32) (ix2 r f)
      = ∑ q : Fin 4096, a (ix2 r q) * b (ix2 q f) := by
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 r f) ((ValueIdx.contrEquiv1 dot_S512x4096_S4096x128_S512x128_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S512x4096_S4096x128_S512x128_1_0_0_1_n_n.rhsIdx (ix2 r f) ((ValueIdx.contrEquiv1 dot_S512x4096_S4096x128_S512x128_1_0_0_1_n_n 4096 rfl rfl).symm k) = ix2 k f := funext fun a => Fin.ext (by
    match a with
    | ⟨0, _⟩ => exact (rhs_axis0 _ _).trans hk
    | ⟨1, _⟩ => exact rhs_axis1 _ _)
  rw [el, er]

/-! ## The layout steps between a row's degree and the scale of its 128 features -/

/-- A vector of `a` entries viewed as a column `[a, 1]` reads, at `(i, u)`, entry `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` spread over `b` features reads, at `(p, c)`, the column's entry `p`. -/
theorem spread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a tile of H at row `r`: the sum of the row's 4096 entries. -/
theorem degree_apply (h : FVec Ideal S512x4096 .f32) (r : Fin 512) :
    multiReduction (F := Ideal) .add [1] S512 h 0x00000000#32 reduces_S512x4096_S512 (.inl rfl) rfl (ix1 r)
      = ∑ q : Fin 4096, h (ix2 r q) := by
  refine (Ideal.multiReduction_add_single h 0x00000000#32 reduces_S512x4096_S512 _ _ (ix1 r)).trans ?_
  refine Finset.sum_congr rfl fun q _ => congrArg h (funext fun a => Fin.ext ?_)
  match a with
  | ⟨0, _⟩ => rfl
  | ⟨1, _⟩ => rfl

/-! ## What a tile stores, at a row and a feature -/

/-- The stored block at row `r` and feature `f`: the reciprocal of the row's degree plus ε, times the row of the tile of H against column `f` of the edge messages. -/
theorem stored_apply (h : Vec Ideal S512x4096 .f32) (e : Vec Ideal S4096x128 .f32) (r : Fin 512) (f : Fin 128) :
    k1_pay1 h e (ix2 r f)
      = Ideal.div Cert.Hyper.one ((∑ q : Fin 4096, h (ix2 r q)) + Cert.Hyper.eps) * ∑ q : Fin 4096, h (ix2 r q) * e (ix2 q f) := by
  unfold k1_pay1
  rw [mulf_apply, spread_apply, divf_apply, addf_apply, broadcast_apply, broadcast_apply, column_apply, degree_apply, product_apply]
  simp only [truncf_apply, shapeCast_self]
  rfl

/-! ## The tiles as rows of the arrays -/

/-- The index maps over the grid: tile `t` of H and of the result is block `(t, 0)`; the edge messages are block `(0, 0)` at every tile. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of tile `t` of H is row `512 t + r` of H. -/
theorem hT_apply (c : Dev nD) (t : Fin cfg1.N) (r : Fin 512) (q : Fin 4096) (n : Fin 16384) (hn : n.val = 512 * t.val + r.val) :
    Node.hT V c t (ix2 r q) = (V c main_arg1 : Cert.Hyper.SH.Idx → EReal) (ix2 n q) := by
  obtain ⟨e0, e1, -⟩ := index_facts t
  unfold Node.hT Node.tile
  rw [View.read_apply]
  show V c main_arg1 _ = V c main_arg1 _
  congr 1
  funext a
  apply Fin.ext
  match a with
  | ⟨0, _⟩ => show win1_0.index t (0 : Fin 2) * 512 + 1 * r.val = n.val; rw [e0, hn]; omega
  | ⟨1, _⟩ => show win1_0.index t (1 : Fin 2) * 4096 + 1 * q.val = q.val; rw [e1]; omega

/-- The edge messages' tile is the whole edge-message array, at every tile. -/
theorem eT_apply (c : Dev nD) (t : Fin cfg1.N) (q : Fin 4096) (f : Fin 128) :
    Node.eT V c t (ix2 q f) = (V c main_v0 : Cert.Hyper.SE.Idx → EReal) (ix2 q f) := by
  obtain ⟨-, -, e2, e3, -⟩ := index_facts t
  unfold Node.eT Node.tile
  rw [View.read_apply]
  show V c main_v0 _ = V c main_v0 _
  congr 1
  funext a
  apply Fin.ext
  match a with
  | ⟨0, _⟩ => show win1_1.index t (0 : Fin 2) * 4096 + 1 * q.val = q.val; rw [e2]; omega
  | ⟨1, _⟩ => show win1_1.index t (1 : Fin 2) * 128 + 1 * f.val = f.val; rw [e3]; omega

/-! ## What tile `t` stores is the node messages of its rows -/

/-- The block tile `t` stores, at row `r` and feature `f`, is the node message of row `512 t + r` at feature `f`: the same
    reciprocal and the same sum of products, term by term. -/
theorem outAt_apply (c : Dev nD) (t : Fin cfg1.N) (y : S512x128.Idx) (i : Cert.Hyper.SX.Idx)
    (h0 : (i 0).val = 512 * t.val + (y 0).val) (h1 : (i 1).val = (y 1).val) :
    Node.outAt V c t y = Cert.Hyper.nodeArr (V c main_arg1) (V c main_v0) i := by
  obtain ⟨r, f, rfl⟩ : ∃ (r : Fin 512) (f : Fin 128), y = ix2 r f := ⟨y 0, y 1, eq_ix2 y⟩
  obtain ⟨n, g, rfl⟩ : ∃ (n : Fin 16384) (g : Fin 128), i = ix2 n g := ⟨i 0, i 1, eq_ix2 i⟩
  obtain rfl : g = f := Fin.ext h1
  have hH : ∀ q : Fin 4096, Node.hT V c t (ix2 r q) = (V c main_arg1 : Cert.Hyper.SH.Idx → EReal) (ix2 n q) :=
    fun q => hT_apply V c t r q n h0
  have hE : ∀ q : Fin 4096, Node.eT V c t (ix2 q g) = (V c main_v0 : Cert.Hyper.SE.Idx → EReal) (ix2 q g) :=
    fun q => eT_apply V c t q g
  unfold Node.outAt
  refine (stored_apply (Node.hT V c t) (Node.eT V c t) r g).trans ?_
  rw [Cert.Hyper.nodeArr_apply]
  unfold Cert.Hyper.node Cert.Hyper.nodeDeg
  rw [Finset.sum_congr rfl fun q _ => hH q, Finset.sum_congr rfl fun q _ => congrArg₂ (· * ·) (hH q) (hE q)]

/-- What tile `t` writes back is block `t` of the node-message array. -/
theorem flushed_eq (c : Dev nD) (t : Fin cfg1.N) :
    (Node.dat (F := Ideal) V c).flushed 2 t
      = ((cfg1.win 2).blk t).view.read (Elt Ideal) (Cert.Hyper.nodeArr (V c main_arg1) (V c main_v0)) := by
  show (cfg1.win 2).cut (grid1.coords t) ((Node.dat V c).after 2 t) = _
  rw [Node.dat_after2]
  obtain ⟨-, -, -, -, e4, e5⟩ := index_facts t
  funext y
  rw [View.read_apply]
  refine outAt_apply V c t _ _ ?_ ?_
  · show win1_2.index t (0 : Fin 2) * 512 + 1 * (y 0).val = 512 * t.val + (y 0).val; rw [e4]; omega
  · show win1_2.index t (1 : Fin 2) * 128 + 1 * (y 1).val = (y 1).val; rw [e5]; omega

/-! ## The 32 tiles cover the 16384 rows -/

/-- A result index is in tile `t`'s block exactly when each coordinate is in the block's range. -/
theorem mem_blk (t : Fin cfg1.N) (i : S16384x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v1).slice (win1_2.rect t)).set ↔ _
  rw [View.set_slice_whole, Rect.mem_set_unit]
  exact Iff.rfl

/-- Row `n` of the result lies in the block of tile `n / 512`, which is written back. -/
theorem cover (i : S16384x128.Idx) : ∃ t : Fin cfg1.N, (cfg1.win 2).flush t = true ∧ i ∈ ((cfg1.win 2).blk t).view.set := by
  have hN : cfg1.N = 32 := N_1
  have hi0 : (i 0).val < 16384 := (i 0).isLt
  have hi1 : (i 1).val < 128 := (i 1).isLt
  obtain ⟨t, ht⟩ : ∃ t : Fin cfg1.N, t.val = (i 0).val / 512 := ⟨⟨(i 0).val / 512, by rw [hN]; omega⟩, rfl⟩
  obtain ⟨-, -, -, -, e4, e5⟩ := index_facts t
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; rw [e4, ht]; omega
  | ⟨1, _⟩ => show win1_2.index t (1 : Fin 2) * 128 ≤ (i 1).val ∧ (i 1).val < win1_2.index t (1 : Fin 2) * 128 + 128; rw [e5]; omega

/-! ## The result array -/

/-- After the second launch the result array holds the specification's node messages of `H` and the edge-message array the launch was entered with. -/
theorem node_final (c : Dev nD) :
    (Node.dat (F := Ideal) V c).arrAt 2 cfg1.N = Cert.Hyper.nodeArr (V c main_arg1) (V c main_v0) :=
  (Node.dat V c).arrAt_eq_of_cover 2 (Cert.Hyper.nodeArr (V c main_arg1) (V c main_v0)) (fun t _ => flushed_eq V c t) cover

end Cert.KernelIdeal.NodeValue

end
-- ==== Proof.RefValue.lean ====
/- The reference program's result, over the extended reals, is the specification's node-message array. -/
import proofs.«117672_j79620103733959_1_alg».proof.Proof.Gen.ReferenceIdeal.Run
import proofs.«117672_j79620103733959_1_alg».proof.Proof.Gen.ReferenceIdeal.Read
import proofs.«117672_j79620103733959_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## The stages at coordinates

Each stage of the reference, read at an index built from its coordinates, is the corresponding quantity of the
specification: the index maps of the stages send coordinate-built indices to coordinate-built indices, and the
products, sums and quotients are the same on both sides. Only the zero word (a sum's initial value) is evaluated. -/

section Stages

variable (x : (⟨S16384x128, .f32⟩ : BufTy).Contents (Elt Ideal)) (H : (⟨S16384x4096, .f32⟩ : BufTy).Contents (Elt Ideal))
  (W : (⟨S128x128, .f32⟩ : BufTy).Contents (Elt Ideal))

/-- The projection `x W` at a row and a feature. -/
theorem proj_at (n : Fin 16384) (f : Fin 128) :
    val_main_v10 (F := Ideal) x W (ix2 n f) = Cert.Hyper.proj x W n f := by
  have el : ∀ k : Fin 128, lidx_main_v10 (ix2 n f) k = ix2 n k := fun k =>
    funext fun a => Fin.ext (by match a with | ⟨0, _⟩ => rfl | ⟨1, _⟩ => rfl)
  have er : ∀ k : Fin 128, ridx_main_v10 (ix2 n f) k = ix2 k f := fun k =>
    funext fun a => Fin.ext (by match a with | ⟨0, _⟩ => rfl | ⟨1, _⟩ => rfl)
  rw [val_main_v10_apply]
  simp only [el, er]
  rfl

/-- A hyperedge's degree plus `ε`: the column sum of `H` starts from zero. -/
theorem edgeDeg_at (e : Fin 4096) :
    val_main_v2 (F := Ideal) H (ix1 e) = Cert.Hyper.edgeDeg H e + Cert.Hyper.eps := by
  have hi : ∀ k : Fin 16384, idx_main_v0 (ix1 e) k = ix2 k e := fun k =>
    funext fun a => Fin.ext (by match a with | ⟨0, _⟩ => rfl | ⟨1, _⟩ => rfl)
  rw [val_main_v2_apply, val_main_v0_apply, val_main_v1_apply, val_main_cst_apply, val_main_cst_0_apply]
  simp only [Ideal.addf_def, Ideal.ofBits_def, Ideal.ofBits_zero_f32, zero_add, hi]
  rfl

/-- A node's degree plus `ε`: the row sum of `H` starts from zero. -/
theorem nodeDeg_at (n : Fin 16384) :
    val_main_v7 (F := Ideal) H (ix1 n) = Cert.Hyper.nodeDeg H n + Cert.Hyper.eps := by
  have hi : ∀ k : Fin 4096, idx_main_v5 (ix1 n) k = ix2 n k := fun k =>
    funext fun a => Fin.ext (by match a with | ⟨0, _⟩ => rfl | ⟨1, _⟩ => rfl)
  rw [val_main_v7_apply, val_main_v5_apply, val_main_v6_apply, val_main_cst_2_apply, val_main_cst_3_apply]
  simp only [Ideal.addf_def, Ideal.ofBits_def, Ideal.ofBits_zero_f32, zero_add, hi]
  rfl

/-- The factor of a hyperedge: `1` over its degree plus `ε`. -/
theorem edgeScale_at (e : Fin 4096) :
    val_main_v4 (F := Ideal) H (ix1 e)
      = Ideal.div Cert.Hyper.one (Cert.Hyper.edgeDeg H e + Cert.Hyper.eps) := by
  rw [val_main_v4_apply, val_main_v3_apply, val_main_cst_1_apply, edgeDeg_at]
  rfl

/-- The factor of a node: `1` over its degree plus `ε`. -/
theorem nodeScale_at (n : Fin 16384) :
    val_main_v9 (F := Ideal) H (ix1 n)
      = Ideal.div Cert.Hyper.one (Cert.Hyper.nodeDeg H n + Cert.Hyper.eps) := by
  rw [val_main_v9_apply, val_main_v8_apply, val_main_cst_4_apply, nodeDeg_at]
  rfl

/-- The unscaled gather onto a hyperedge: the transposed `H` against the projection. -/
theorem gather_at (e : Fin 4096) (f : Fin 128) :
    val_main_v12 (F := Ideal) x H W (ix2 e f) = Cert.Hyper.gather x H W e f := by
  have el : ∀ k : Fin 16384, lidx_main_v12 (ix2 e f) k = ix2 e k := fun k =>
    funext fun a => Fin.ext (by match a with | ⟨0, _⟩ => rfl | ⟨1, _⟩ => rfl)
  have er : ∀ k : Fin 16384, ridx_main_v12 (ix2 e f) k = ix2 k f := fun k =>
    funext fun a => Fin.ext (by match a with | ⟨0, _⟩ => rfl | ⟨1, _⟩ => rfl)
  have et : ∀ k : Fin 16384, idx_main_v11 (ix2 e k) = ix2 k e := fun k =>
    funext fun a => Fin.ext (by match a with | ⟨0, _⟩ => rfl | ⟨1, _⟩ => rfl)
  rw [val_main_v12_apply]
  simp only [el, er, val_main_v11_apply, et, proj_at]
  rfl

/-- The edge messages: the factor, broadcast along the features, times the gather. -/
theorem edge_at (e : Fin 4096) (f : Fin 128) :
    val_main_v15 (F := Ideal) x H W (ix2 e f) = Cert.Hyper.edge x H W e f := by
  have e14 : idx_main_v14 (ix2 e f) = ix2 e (0 : Fin 1) :=
    funext fun a => Fin.ext (by match a with | ⟨0, _⟩ => rfl | ⟨1, _⟩ => rfl)
  have e13 : idx_main_v13 (ix2 e (0 : Fin 1)) = ix1 e :=
    funext fun a => Fin.ext (by match a with | ⟨0, _⟩ => rfl)
  rw [val_main_v15_apply, val_main_v14_apply, e14, val_main_v13_apply, e13, edgeScale_at, gather_at]
  rfl

end Stages

/-- The reference's last stage, as a function of its three arguments, is the specification's result. -/
theorem ref_is_result (x : (⟨S16384x128, .f32⟩ : BufTy).Contents (Elt Ideal)) (H : (⟨S16384x4096, .f32⟩ : BufTy).Contents (Elt Ideal))
    (W : (⟨S128x128, .f32⟩ : BufTy).Contents (Elt Ideal)) :
    val_main_v19 (F := Ideal) x H W = Cert.Hyper.result x H W := by
  funext i
  obtain ⟨n, f, rfl⟩ : ∃ (n : Fin 16384) (f : Fin 128), i = ix2 n f := ⟨i 0, i 1, eq_ix2 i⟩
  have e18 : idx_main_v18 (ix2 n f) = ix2 n (0 : Fin 1) :=
    funext fun a => Fin.ext (by match a with | ⟨0, _⟩ => rfl | ⟨1, _⟩ => rfl)
  have e17 : idx_main_v17 (ix2 n (0 : Fin 1)) = ix1 n :=
    funext fun a => Fin.ext (by match a with | ⟨0, _⟩ => rfl)
  have el : ∀ k : Fin 4096, lidx_main_v16 (ix2 n f) k = ix2 n k := fun k =>
    funext fun a => Fin.ext (by match a with | ⟨0, _⟩ => rfl | ⟨1, _⟩ => rfl)
  have er : ∀ k : Fin 4096, ridx_main_v16 (ix2 n f) k = ix2 k f := fun k =>
    funext fun a => Fin.ext (by match a with | ⟨0, _⟩ => rfl | ⟨1, _⟩ => rfl)
  rw [val_main_v19_apply, val_main_v18_apply, e18, val_main_v17_apply, e17, nodeScale_at, val_main_v16_apply]
  simp only [el, er, edge_at]
  rfl

end Cert.ReferenceIdeal.RefValue

end
-- ==== Proof.lean ====
/-
  The certificate: a two-launch Pallas kernel for hypergraph message passing, `D_v⁻¹ H D_e⁻¹ Hᵀ (x W)`, against its jnp
  reference, over the extended reals.

  Both programs compute, with `proj = x W`,
    edge[e, f] = (1 / (Σ_n H[n, e] + ε)) · Σ_n H[n, e] · proj[n, f]      node[n, f] = (1 / (Σ_e H[n, e] + ε)) · Σ_e H[n, e] · edge[e, f]
  (Spec.lean). The reference does so with whole-array sums and products. The kernel's first launch adds the sums over
  the 16384 rows up in 32 tiles of 512 rows, kept in two scratch arrays from tile to tile, and scales at the last tile;
  its second launch is one tile per 512 result rows. The only law between the two sides is that a sum over the rows
  is the sum over the tiles of the tiles' sums; the two float literals (`1` and `ε`) are the same words on both sides
  and are never evaluated; no finiteness of the inputs is used.

  The frames: each kernel body is run symbolically at a grid point (EdgeBody, EdgeRegion, NodeRegion), each launch is a
  region of the several-regions rule (TwoLaunches), for the idealized program and, the same text at its namespace, for
  the word-level one. The values: what the two pipelines write back is the specification's arrays (EdgeValue,
  NodeValue); the reference's last stage is the specification's result (RefValue).
-/
import proofs.«117672_j79620103733959_1_alg».proof.Defs
import proofs.«117672_j79620103733959_1_alg».proof.Proof.Gen.Kernel
import proofs.«117672_j79620103733959_1_alg».proof.Proof.Gen.KernelIdeal
import proofs.«117672_j79620103733959_1_alg».proof.Proof.Gen.ReferenceIdeal
import proofs.«117672_j79620103733959_1_alg».proof.Proof.Gen.ReferenceIdeal.Run
import proofs.«117672_j79620103733959_1_alg».proof.Proof.Gen.ReferenceIdeal.Read
import proofs.«117672_j79620103733959_1_alg».proof.Proof.Gen.Pre_finite_inputs
import proofs.«117672_j79620103733959_1_alg».proof.Proof.TwoLaunches
import proofs.«117672_j79620103733959_1_alg».proof.Proof.Bits.TwoLaunches
import proofs.«117672_j79620103733959_1_alg».proof.Proof.EdgeValue
import proofs.«117672_j79620103733959_1_alg».proof.Proof.NodeValue
import proofs.«117672_j79620103733959_1_alg».proof.Proof.RefValue

noncomputable section

namespace Cert.Proof

open Idealize.ShloMosaic Idealize.ShloMosaic.TcCoe Idealize.SL.Sem

/-- The word-level kernel terminates, faults nowhere and leaves its three arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c =>
      ⟨(h c _ (Cert.Kernel.TwoLaunches.held_of_unscoped Cert.Kernel.main_arg0 (by decide))).trans (Cert.Kernel.TwoLaunches.B2_x m c),
       (h c _ (Cert.Kernel.TwoLaunches.held_of_unscoped Cert.Kernel.main_arg1 (by decide))).trans (Cert.Kernel.TwoLaunches.B2_H m c),
       (h c _ (Cert.Kernel.TwoLaunches.held_of_unscoped Cert.Kernel.main_arg2 (by decide))).trans (Cert.Kernel.TwoLaunches.B2_W m c)⟩)
    (Cert.Kernel.TwoLaunches.run_main (F := Bits) m ρ)

/-- So does the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c =>
      ⟨(h c _ (Cert.KernelIdeal.TwoLaunches.held_of_unscoped Cert.KernelIdeal.main_arg0 (by decide))).trans (Cert.KernelIdeal.TwoLaunches.B2_x m c),
       (h c _ (Cert.KernelIdeal.TwoLaunches.held_of_unscoped Cert.KernelIdeal.main_arg1 (by decide))).trans (Cert.KernelIdeal.TwoLaunches.B2_H m c),
       (h c _ (Cert.KernelIdeal.TwoLaunches.held_of_unscoped Cert.KernelIdeal.main_arg2 (by decide))).trans (Cert.KernelIdeal.TwoLaunches.B2_W m c)⟩)
    (Cert.KernelIdeal.TwoLaunches.run_main (F := Ideal) m ρ)

/-- The reference is host operations only: its run, with the result dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- What the idealized kernel leaves in its result: the second pipeline's write-backs are the node messages of `H` and of what
    the first pipeline wrote back, which are the edge messages of the arguments. -/
theorem kernel_result (m : (ℓ : Loc Cert.KernelIdeal.nD Cert.KernelIdeal.τ Cert.KernelIdeal.sig) → Buf (Elt Ideal) ℓ) (c : Dev Cert.KernelIdeal.nD) :
    Cert.KernelIdeal.TwoLaunches.B2 m c (Proc.devRef .tc Cert.KernelIdeal.main_v1)
      = Cert.Hyper.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.TwoLaunches.B2_node, Cert.KernelIdeal.NodeValue.node_final, Cert.KernelIdeal.TwoLaunches.V1_H,
    Cert.KernelIdeal.TwoLaunches.V1_edge, Cert.KernelIdeal.EdgeValue.edge_final]
  rfl

/-- From memories agreeing on the arguments the two idealized programs end with the specification's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Hyper.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c _ (Cert.KernelIdeal.TwoLaunches.held_of_unscoped Cert.KernelIdeal.main_v1 (by decide))).trans (kernel_result m c),
       (h c _ (Cert.KernelIdeal.TwoLaunches.held_of_unscoped Cert.KernelIdeal.main_arg0 (by decide))).trans (Cert.KernelIdeal.TwoLaunches.B2_x m c),
       (h c _ (Cert.KernelIdeal.TwoLaunches.held_of_unscoped Cert.KernelIdeal.main_arg1 (by decide))).trans (Cert.KernelIdeal.TwoLaunches.B2_H m c),
       (h c _ (Cert.KernelIdeal.TwoLaunches.held_of_unscoped Cert.KernelIdeal.main_arg2 (by decide))).trans (Cert.KernelIdeal.TwoLaunches.B2_W m c)⟩)
      (Cert.KernelIdeal.TwoLaunches.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_is_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
